-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S128x768 : Shape := ⟨2, ![128, 768]⟩
abbrev S128 : Shape := ⟨1, ![128]⟩
abbrev S64x512 : Shape := ⟨2, ![64, 512]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S128x768 : S_.BroadcastsInDim S128x768 (![] : Fin 0 → Fin S128x768.rank)
  reducesTo_S128x768_S_d0_1 : S128x768.ReducesTo [0, 1] S_
  bcast_S_S128 : S_.BroadcastsInDim S128 (![] : Fin 0 → Fin S128.rank)
  reducesTo_S128_S_d0 : S128.ReducesTo [0] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_arg3 : IVec S64x512 32) (main_v13 : IVec S_ 1) (main_v15 : IVec S64x512 1) (main_c_5 : IVec S_ 1) : IVec S_ 1 :=
  let main_v16 : IVec S_ 1 := (fun x v => Host.reduce IntOp.andi x v reducesTo_S64x512_S_d0_1 h_S_) main_v15 main_c_5
  let main_v17 : IVec S_ 1 := andi main_v13 main_v16
  let main_c_6 : IVec S_ 32 := constantI S_ 32 512#32
  let main_v18 : IVec S64x512 32 := broadcastInDim S64x512 ![] bcast_S_S64x512 main_c_6
  let main_v19 : IVec S64x512 1 := cmpi .slt main_arg3 main_v18
  let main_c_7 : IVec S_ 1 := constantI S_ 1 1#1
  let main_v20 : IVec S_ 1 := (fun x v => Host.reduce IntOp.andi x v reducesTo_S64x512_S_d0_1 h_S_) main_v19 main_c_7
  let main_v21 : IVec S_ 1 := andi main_v17 main_v20
  main_v21

def fn {F : FTy → Type} [FloatOps F] (main_arg0 : FVec F S64x512x768 .f32) (main_arg1 : FVec F S128x768 .f32) (main_arg2 : FVec F S128 .f32) (main_arg3 : IVec S64x512 32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S128x768 .f32 := Host.absf main_arg1
  let main_cst_0 : FVec F S_ .f32 := constant S_ .f32 0x7F800000#32
  let main_v5 : FVec F S128x768 .f32 := broadcastInDim S128x768 ![] bcast_S_S128x768 main_cst_0
  let main_v6 : IVec S128x768 1 := cmpf .olt main_v4 main_v5
  let main_c_1 : IVec S_ 1 := constantI S_ 1 1#1
  let main_v7 : IVec S_ 1 := (fun x v => Host.reduce IntOp.andi x v reducesTo_S128x768_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S64x512 32 := broadcastInDim S64x512 ![] bcast_S_S64x512 main_c_4
  let main_v15 : IVec S64x512 1 := cmpi .sge main_arg3 main_v14
  let main_c_5 : IVec S_ 1 := constantI S_ 1 1#1
  fn_part1 (F := F) main_arg3 main_v13 main_v15 main_c_5
-- ==== Kernel.lean ====
abbrev S64x512x768 : Shape := ⟨3, ![64, 512, 768]⟩
abbrev S128x768 : Shape := ⟨2, ![128, 768]⟩
abbrev S128 : Shape := ⟨1, ![128]⟩
abbrev S64x512 : Shape := ⟨2, ![64, 512]⟩
abbrev S768x128 : Shape := ⟨2, ![768, 128]⟩
abbrev S64x1x512 : Shape := ⟨3, ![64, 1, 512]⟩
abbrev S64x128x512 : Shape := ⟨3, ![64, 128, 512]⟩
abbrev S4x512x768 : Shape := ⟨3, ![4, 512, 768]⟩
abbrev S4x1x512 : Shape := ⟨3, ![4, 1, 512]⟩
abbrev S4x128x512 : Shape := ⟨3, ![4, 128, 512]⟩
abbrev S2048x768 : Shape := ⟨2, ![2048, 768]⟩
abbrev S2048x128 : Shape := ⟨2, ![2048, 128]⟩
abbrev S4x512x128 : Shape := ⟨3, ![4, 512, 128]⟩
abbrev S1x512x1 : Shape := ⟨3, ![1, 512, 1]⟩
abbrev S4x512x512 : Shape := ⟨3, ![4, 512, 512]⟩
abbrev S4x512 : Shape := ⟨2, ![4, 512]⟩
abbrev S1x128x1 : Shape := ⟨3, ![1, 128, 1]⟩
abbrev S64x128x511 : Shape := ⟨3, ![64, 128, 511]⟩

abbrev nBuf : Space → Nat
  | .hbm => 9
  | .vmem => 8
  | .smem => 0
  | _ => 0

abbrev bufTy : (tb : Table) → Fin (tcTables nBuf tb) → BufTy
  | .hbm, ⟨0, _⟩ => ⟨S64x512x768, .f32⟩
  | .hbm, ⟨1, _⟩ => ⟨S128x768, .f32⟩
  | .hbm, ⟨2, _⟩ => ⟨S128, .f32⟩
  | .hbm, ⟨3, _⟩ => ⟨S64x512, .i32⟩
  | .hbm, ⟨4, _⟩ => ⟨S768x128, .f32⟩
  | .hbm, ⟨5, _⟩ => ⟨S768x128, .bf16⟩
  | .hbm, ⟨6, _⟩ => ⟨S64x1x512, .i32⟩
  | .hbm, ⟨7, _⟩ => ⟨S64x128x512, .f32⟩
  | .hbm, ⟨8, _⟩ => ⟨S64x128x511, .f32⟩
  | .local _ .vmem, ⟨0, _⟩ => ⟨S4x512x768, .f32⟩
  | .local _ .vmem, ⟨1, _⟩ => ⟨S4x512x768, .f32⟩
  | .local _ .vmem, ⟨2, _⟩ => ⟨S4x1x512, .i32⟩
  | .local _ .vmem, ⟨3, _⟩ => ⟨S4x1x512, .i32⟩
  | .local _ .vmem, ⟨4, _⟩ => ⟨S768x128, .bf16⟩
  | .local _ .vmem, ⟨5, _⟩ => ⟨S128, .f32⟩
  | .local _ .vmem, ⟨6, _⟩ => ⟨S4x128x512, .f32⟩
  | .local _ .vmem, ⟨7, _⟩ => ⟨S4x128x512, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x768_S768x128_1_0 : S128x768.Transposes [1, 0] S768x128
  bitsLt_bf16_f32 : FTy.bits .bf16 < FTy.bits .f32
  shapeCasts_S64x512_S64x1x512 : S64x512.ShapeCasts S64x1x512
  inb_S4x512x768_S4x512x768_0_0_0 : ∀ a, (![0, 0, 0] : Fin 3 → Nat) a + S4x512x768.size a ≤ S4x512x768.size a
  h_S4x512x768 : 0 < S4x512x768.numel
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S128_S128_0 : ∀ a, (![0] : Fin 1 → Nat) a + S128.size a ≤ S128.size a
  h_S128 : 0 < S128.numel
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  shapeCasts_S4x512x768_S2048x768 : S4x512x768.ShapeCasts S2048x768
  shapeCasts_S2048x128_S4x512x128 : S2048x128.ShapeCasts S4x512x128
  iota_S1x512x1_d1_w32 : S1x512x1.Iotas .tc 32 [1]
  broadcasts_S1x512x1_S4x512x512 : S1x512x1.Broadcasts S4x512x512
  broadcasts_S4x1x512_S4x512x512 : S4x1x512.Broadcasts S4x512x512
  natLt_1_32 : 1 < 32
  reduces_S4x512x512_S4x512 : S4x512x512.Reduces [2] S4x512
  shapeCasts_S4x512_S4x1x512 : S4x512.ShapeCasts S4x1x512
  broadcasts_S4x1x512_S4x128x512 : S4x1x512.Broadcasts S4x128x512
  shapeCasts_S128_S1x128x1 : S128.ShapeCasts S1x128x1
  broadcasts_S1x128x1_S4x128x512 : S1x128x1.Broadcasts S4x128x512
  inb_S4x128x512_S4x128x512_0_0_0 : ∀ a, (![0, 0, 0] : Fin 3 → Nat) a + S4x128x512.size a ≤ S4x128x512.size a
  h_S4x128x512 : 0 < S4x128x512.numel
  slices_S64x128x512_S64x128x511_0_0_1 : S64x128x512.Slices ![0, 0, 1] S64x128x511
  dot_S2048x768_S768x128_S2048x128_1_0_0_1_n_n_wf : DotDims.WF S2048x768 S768x128 S2048x128 [1] [0] [0] [1] [] []
  dot_S4x512x128_S4x512x512_S4x128x512_1_2_2_1_0_0_wf : DotDims.WF S4x512x128 S4x512x512 S4x128x512 [1] [2] [2] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S64x512x768.size a
  hwx0_0 : ∀ i : grid0.Coords, EltTy.bits .f32 = 32 ∨ (Rect.block (s := S64x512x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512.size a ≤ S64x1x512.size a
  hwx0_1 : ∀ i : grid0.Coords, EltTy.bits .i32 = 32 ∨ (Rect.block (s := S64x1x512) S4x1x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x128.size a ≤ S768x128.size a
  hwx0_2 : ∀ i : grid0.Coords, EltTy.bits .bf16 = 32 ∨ (Rect.block (s := S768x128) S768x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x128x512.size a ≤ S64x128x512.size a
  hwx0_4 : ∀ i : grid0.Coords, EltTy.bits .f32 = 32 ∨ (Rect.block (s := S64x128x512) S4x128x512.size (cc0_transform_4 i) (hinb0_4 i)).WholeWords (EltTy.packing .f32)

variable [Facts₀]

def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def dot_S4x512x128_S4x512x512_S4x128x512_1_2_2_1_0_0 : DotDims S4x512x128 S4x512x512 S4x128x512 where
  lhsContracting := [1]
  rhsContracting := [2]
  lhsNonContracting := [2]
  rhsNonContracting := [1]
  lhsBatch := [0]
  rhsBatch := [0]
  wf := dot_S4x512x128_S4x512x512_S4x128x512_1_2_2_1_0_0_wf

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x128x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S128x768 : Shape := ⟨2, ![128, 768]⟩
abbrev S128 : Shape := ⟨1, ![128]⟩
abbrev S64x512 : Shape := ⟨2, ![64, 512]⟩
abbrev S64 : Shape := ⟨1, ![64]⟩
abbrev S64x1 : Shape := ⟨2, ![64, 1]⟩
abbrev S_ : Shape := ⟨0, ![]⟩
abbrev S32768 : Shape := ⟨1, ![32768]⟩
abbrev S32768x768 : Shape := ⟨2, ![32768, 768]⟩
abbrev S32768x1 : Shape := ⟨2, ![32768, 1]⟩
abbrev S64x511x768 : Shape := ⟨3, ![64, 511, 768]⟩
abbrev S128x64x511 : Shape := ⟨3, ![128, 64, 511]⟩
abbrev S64x128x511 : Shape := ⟨3, ![64, 128, 511]⟩
abbrev S1x128x1 : Shape := ⟨3, ![1, 128, 1]⟩

abbrev nBuf : Space → Nat
  | .hbm => 35
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S128x768, .f32⟩
  | .hbm, ⟨2, _⟩ => ⟨S128, .f32⟩
  | .hbm, ⟨3, _⟩ => ⟨S64x512, .i32⟩
  | .hbm, ⟨4, _⟩ => ⟨S64, .i32⟩
  | .hbm, ⟨5, _⟩ => ⟨S64x1, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S64x512, .i32⟩
  | .hbm, ⟨10, _⟩ => ⟨S64x512, .i32⟩
  | .hbm, ⟨11, _⟩ => ⟨S32768, .i32⟩
  | .hbm, ⟨12, _⟩ => ⟨S32768x768, .f32⟩
  | .hbm, ⟨13, _⟩ => ⟨S_, .f32⟩
  | .hbm, ⟨14, _⟩ => ⟨S32768x768, .f32⟩
  | .hbm, ⟨15, _⟩ => ⟨S32768x1, .i32⟩
  | .hbm, ⟨16, _⟩ => ⟨S32768x768, .f32⟩
  | .hbm, ⟨17, _⟩ => ⟨S_, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .i32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x768, .f32⟩
  | .hbm, ⟨27, _⟩ => ⟨S32768x768, .f32⟩
  | .hbm, ⟨28, _⟩ => ⟨S64x512x768, .f32⟩
  | .hbm, ⟨29, _⟩ => ⟨S64x511x768, .f32⟩
  | .hbm, ⟨30, _⟩ => ⟨S128x64x511, .f32⟩
  | .hbm, ⟨31, _⟩ => ⟨S64x128x511, .f32⟩
  | .hbm, ⟨32, _⟩ => ⟨S1x128x1, .f32⟩
  | .hbm, ⟨33, _⟩ => ⟨S64x128x511, .f32⟩
  | .hbm, ⟨34, _⟩ => ⟨S64x128x511, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  shapeCasts_S64x512_S32768 : S64x512.ShapeCasts S32768
  shapeCasts_S64x512x768_S32768x768 : S64x512x768.ShapeCasts S32768x768
  bcast_S_S32768x768 : S_.BroadcastsInDim S32768x768 (![] : Fin 0 → Fin S32768x768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x768_0_1 : S32768x1.BroadcastsInDim S32768x768 (![0, 1] : Fin 2 → Fin S32768x768.rank)
  shapeCasts_S32768x768_S64x512x768 : S32768x768.ShapeCasts S64x512x768
  slices_S64x512x768_S64x511x768_0_1_0 : S64x512x768.Slices ![0, 1, 0] S64x511x768
  transposes_S128x64x511_S64x128x511_1_0_2 : S128x64x511.Transposes [1, 0, 2] S64x128x511
  bcast_S128_S1x128x1_1 : S128.BroadcastsInDim S1x128x1 (![1] : Fin 1 → Fin S1x128x1.rank)
  bcast_S1x128x1_S64x128x511_0_1_2 : S1x128x1.BroadcastsInDim S64x128x511 (![0, 1, 2] : Fin 3 → Fin S64x128x511.rank)
  scatter_S32768x768_S32768x1_S32768x768_1_0_0_1_wf : ScatterDims.WF S32768x768 S32768x1 S32768x768 [1] [0] [0] 1
  scatter_S32768x1_S32768x1_S32768x1_1_0_0_1_wf : ScatterDims.WF S32768x1 S32768x1 S32768x1 [1] [0] [0] 1
  dot_S128x768_S64x511x768_S128x64x511_1_2_0_01_n_n_wf : DotDims.WF S128x768 S64x511x768 S128x64x511 [1] [2] [0] [0, 1] [] []

variable [Facts₀]

def scatter_S32768x768_S32768x1_S32768x768_1_0_0_1 : ScatterDims S32768x768 S32768x1 S32768x768 where
  updateWindowDims := [1]
  insertedWindowDims := [0]
  scatterDimsToOperandDims := [0]
  indexVectorDim := 1
  wf := scatter_S32768x768_S32768x1_S32768x768_1_0_0_1_wf
def scatter_S32768x1_S32768x1_S32768x1_1_0_0_1 : ScatterDims S32768x1 S32768x1 S32768x1 where
  updateWindowDims := [1]
  insertedWindowDims := [0]
  scatterDimsToOperandDims := [0]
  indexVectorDim := 1
  wf := scatter_S32768x1_S32768x1_S32768x1_1_0_0_1_wf
def dot_S128x768_S64x511x768_S128x64x511_1_2_0_01_n_n : DotDims S128x768 S64x511x768 S128x64x511 where
  lhsContracting := [1]
  rhsContracting := [2]
  lhsNonContracting := [0]
  rhsNonContracting := [0, 1]
  lhsBatch := []
  rhsBatch := []
  wf := dot_S128x768_S64x511x768_S128x64x511_1_2_0_01_n_n_wf

class Facts : Prop extends Facts₀ where

variable [Facts]
-- ==== Proof.Spec.lean ====
/-
  Word-level mean pooling of a linear head, as functions of the four argument arrays.

  The arguments are the subword states X[b, s, h] (64 rows of 512 subwords, 768 features), the head's weight
  W[o, h] (128 outputs), its bias B[o], and the word id seg[b, s] of every subword, a 32-bit word. Subword s of
  row b belongs to word g when its id, read as a natural number, is g.

  pooled: project every subword, proj[b, s, o] = sum over h of X[b, s, h] * W[o, h]; average the projections of
  the subwords of word g, dividing by max(number of such subwords, 1); add the bias. The result array G drops word
  0 of every row: entry (b, o, g') is pooled at word g' + 1.

  refPooled: the same quantity computed the other way round, over the 64 * 512 subwords of all rows laid end to
  end. Subword j = 512 * b' + s' carries the flat id seg[b', s'] + 512 * b' (32-bit arithmetic); the features of the
  subwords whose flat id is 512 * b + g are summed and divided by max(their number, 1), and the head is applied to
  that average. R is its result array, word 0 dropped likewise.

  The two agree when every entry of X, W and B is a real number and every id is below 512 (Algebra.lean).
-/
import Idealize.ShloMosaic.Lib.ValueIdx
import Idealize.ShloMosaic.PureOps.Ideal

noncomputable section

open scoped BigOperators

namespace Cert.SegPool

open Idealize.ShloMosaic Idealize.ShloMosaic.ValueIdx

abbrev SX : Shape := ⟨3, ![64, 512, 768]⟩
abbrev SW : Shape := ⟨2, ![128, 768]⟩
abbrev SB : Shape := ⟨1, ![128]⟩
abbrev SI : Shape := ⟨2, ![64, 512]⟩
/-- The pooled array with every word, and with word 0 of each row dropped. -/
abbrev SF : Shape := ⟨3, ![64, 128, 512]⟩
abbrev SO : Shape := ⟨3, ![64, 128, 511]⟩

/-- Every entry is a real number. -/
def AllReal {ι : Type} (v : ι → EReal) : Prop := ∀ i, ∃ r : ℝ, v i = (r : EReal)

/-- Every word id is one of a row's 512 words. -/
def InRange (seg : SI.Idx → BitVec 32) : Prop := ∀ i, (seg i).toNat < 512

/-- 1 when subword s of row b belongs to word g, else 0. -/
def hit (seg : SI.Idx → BitVec 32) (b : Fin 64) (g s : Fin 512) : EReal :=
  if (seg (ix2 b s)).toNat = g.val then 1 else 0

/-- Output o of the head applied to subword s of row b, the bias left out. -/
def proj (X : SX.Idx → EReal) (W : SW.Idx → EReal) (b : Fin 64) (s : Fin 512) (o : Fin 128) : EReal :=
  ∑ h : Fin 768, X (ix3 b s h) * W (ix2 o h)

/-- The number of subwords of word g in row b. -/
def count (seg : SI.Idx → BitVec 32) (b : Fin 64) (g : Fin 512) : EReal := ∑ s : Fin 512, hit seg b g s

/-- The mean over word g's subwords of output o of the head, plus the bias. -/
def pooled (X : SX.Idx → EReal) (W : SW.Idx → EReal) (B : SB.Idx → EReal) (seg : SI.Idx → BitVec 32)
    (b : Fin 64) (o : Fin 128) (g : Fin 512) : EReal :=
  Ideal.div (∑ s : Fin 512, proj X W b s o * hit seg b g s) (max (count seg b g) 1) + B (ix1 o)

/-- Word g' + 1: the result arrays drop word 0. -/
def wordOf (g' : Fin 511) : Fin 512 := ⟨g'.val + 1, by have := g'.isLt; omega⟩

/-- The pooled array over every word. -/
def full (X : SX.Idx → EReal) (W : SW.Idx → EReal) (B : SB.Idx → EReal) (seg : SI.Idx → BitVec 32) :
    SF.Idx → EReal := fun i => pooled X W B seg (i 0) (i 1) (i 2)

/-- The pooled array, word 0 of each row dropped. -/
def G (X : SX.Idx → EReal) (W : SW.Idx → EReal) (B : SB.Idx → EReal) (seg : SI.Idx → BitVec 32) :
    SO.Idx → EReal := fun i => pooled X W B seg (i 0) (i 1) (wordOf (i 2))

/-! ## The same over the subwords of all rows laid end to end -/

/-- The row and the position in it of flat subword j = 512 * row + position. -/
def rowOf (j : Fin 32768) : Fin 64 := ⟨j.val / 512, by have := j.isLt; omega⟩
def colOf (j : Fin 32768) : Fin 512 := ⟨j.val % 512, Nat.mod_lt _ (by norm_num)⟩

/-- The flat word id of flat subword j: its id shifted by 512 per row, in 32-bit arithmetic. -/
def flatId (seg : SI.Idx → BitVec 32) (j : Fin 32768) : BitVec 32 :=
  seg (ix2 (rowOf j) (colOf j)) + BitVec.ofNat 32 (rowOf j).val * 512#32

/-- Feature h summed over the flat subwords whose flat id is word g of row b. -/
def segSum (X : SX.Idx → EReal) (seg : SI.Idx → BitVec 32) (b : Fin 64) (g : Fin 512) (h : Fin 768) : EReal :=
  ∑ j : Fin 32768, if (flatId seg j).toNat = b.val * 512 + g.val then X (ix3 (rowOf j) (colOf j) h) else 0

/-- The number of those flat subwords. -/
def segCount (seg : SI.Idx → BitVec 32) (b : Fin 64) (g : Fin 512) : EReal :=
  ∑ j : Fin 32768, if (flatId seg j).toNat = b.val * 512 + g.val then (1 : EReal) else 0

/-- The head applied to the mean feature vector of word g of row b, plus the bias. -/
def refPooled (X : SX.Idx → EReal) (W : SW.Idx → EReal) (B : SB.Idx → EReal) (seg : SI.Idx → BitVec 32)
    (b : Fin 64) (o : Fin 128) (g : Fin 512) : EReal :=
  (∑ h : Fin 768, W (ix2 o h) * Ideal.div (segSum X seg b g h) (max (segCount seg b g) 1)) + B (ix1 o)

/-- Its result array, word 0 of each row dropped. -/
def R (X : SX.Idx → EReal) (W : SW.Idx → EReal) (B : SB.Idx → EReal) (seg : SI.Idx → BitVec 32) :
    SO.Idx → EReal := fun i => refPooled X W B seg (i 0) (i 1) (wordOf (i 2))

end Cert.SegPool

end
-- ==== Proof.PreDecode.lean ====
/-
  What the precondition says of the four argument arrays: every entry of the subword states, of the weight and of the
  bias is a real number (its absolute value is below +infinity), and every word id, compared as a signed 32-bit
  integer, is at least 0 and below 512, so that read as a natural number it is below 512.

  The precondition is a conjunction of five "for all entries" tests, each an and-reduction over every axis from the
  constant 1. Its value 1 makes each of the five reductions 1, and such a reduction being 1 makes the tested bit 1 at
  every entry. For a float entry v the bit says max v (-v) < +infinity (the word 0x7F800000 denotes +infinity), which
  excludes v = +infinity and v = -infinity, so v is a real number. For an id the two bits say 0 ≤ id and id < 512 as
  signed integers; a word whose signed value is non-negative has that same value unsigned.
-/
import proofs.«423513_j59270548685358_3_alg».proof.Proof.Spec
import proofs.«423513_j59270548685358_3_alg».proof.Proof.Gen.Pre_finite_inputs
import Idealize.ShloMosaic.Lib.ReduceAll
import Idealize.ShloMosaic.Lib.StableHlo.Predicate

noncomputable section

namespace Cert.SegPool

open Idealize.ShloMosaic Idealize.ShloMosaic.ValueIdx

/-- The 32-bit pattern with exponent all ones and significand zero denotes +infinity. -/
private theorem ofBits_inf : Ideal.ofBits .f32 0x7F800000#32 = (⊤ : EReal) := by
  simp [Ideal.ofBits, Ideal.ieee]

/-- An extended real whose absolute value max v (-v) is below +infinity is a real number. -/
private theorem real_of_abs_lt_top (v : EReal) (h : Ideal.cmp .olt (max v (-v)) (⊤ : EReal) = 1#1) :
    ∃ r : ℝ, v = (r : EReal) := by
  induction v using EReal.rec with
  | bot => exact absurd h (by simp [Ideal.cmp])
  | coe r => exact ⟨r, rfl⟩
  | top => exact absurd h (by simp [Ideal.cmp])

/-- One float array: if the and-reduction over every axis of the bits "|v i| < +infinity" is 1, every entry is real. -/
private theorem allReal_of_reduce {s u : Shape} {axes : List (Fin s.rank)} (v : FVec Ideal s .f32)
    (hb : Cert.Pre_finite_inputs.S_.BroadcastsInDim s (![] : Fin 0 → Fin s.rank))
    (init : u.Idx → BitVec 1) (hr : s.ReducesTo axes Cert.Pre_finite_inputs.S_) (hu : 0 < u.numel)
    (e : Host.reduce IntOp.andi
        (cmpf CmpFPredicate.olt (Host.absf v)
          (broadcastInDim s ![] hb (constant Cert.Pre_finite_inputs.S_ FTy.f32 0x7F800000#32)))
        init hr hu ix0 = 1#1) : AllReal v := by
  intro i
  have hi : Ideal.cmp .olt (max (v i) (-(v i))) (Ideal.ofBits .f32 0x7F800000#32) = 1#1 :=
    Host.reduce_andi_eq_one _ init hr hu ix0 e i (funext fun d => d.elim0)
  rw [ofBits_inf] at hi
  exact real_of_abs_lt_top (v i) hi

/-- A 32-bit word whose signed value lies in [0, 512) has unsigned value below 512. -/
private theorem toNat_lt_of_toInt {a : BitVec 32} (g1 : (0 : Int) ≤ a.toInt) (g2 : a.toInt < 512) : a.toNat < 512 := by
  rw [BitVec.toInt_eq_toNat_cond] at g1 g2
  have := a.isLt
  split at g1 <;> omega

/-- The printed precondition, all ones, gives the three finiteness facts and the id range. -/
theorem of_pre (x : FVec Ideal Cert.Pre_finite_inputs.S64x512x768 .f32) (w : FVec Ideal Cert.Pre_finite_inputs.S128x768 .f32)
    (b : FVec Ideal Cert.Pre_finite_inputs.S128 .f32) (seg : IVec Cert.Pre_finite_inputs.S64x512 32)
    (h : Cert.Pre_finite_inputs.fn (F := Ideal) x w b seg = fun _ => 1#1) :
    AllReal x ∧ AllReal w ∧ AllReal b ∧ InRange seg := by
  -- the one entry of the rank-0 result, as a five-fold conjunction of word ands
  have h0 := congrFun h ValueIdx.ix0
  dsimp only [Cert.Pre_finite_inputs.fn, Cert.Pre_finite_inputs.fn_part1, andi] at h0
  obtain ⟨⟨⟨⟨hx, hw⟩, hb⟩, hge⟩, hlt⟩ := by
    simpa only [IntOp.andi_eq_one] using h0
  refine ⟨allReal_of_reduce x _ _ _ _ hx, allReal_of_reduce w _ _ _ _ hw, allReal_of_reduce b _ _ _ _ hb, ?_⟩
  -- the ids: both signed comparisons hold at every position
  intro i
  have h1 : IntOp.cmpi .sge (seg i) 0#32 = 1#1 :=
    Host.reduce_andi_eq_one _ _ _ _ ix0 hge i (funext fun d => d.elim0)
  have h2 : IntOp.cmpi .slt (seg i) 512#32 = 1#1 :=
    Host.reduce_andi_eq_one _ _ _ _ ix0 hlt i (funext fun d => d.elim0)
  have g1 : (0 : Int) ≤ (seg i).toInt := by
    have := IntOp.cmpi_sge.1 h1
    rwa [show (0#32 : BitVec 32).toInt = 0 from by decide] at this
  have g2 : (seg i).toInt < 512 := by
    have := IntOp.cmpi_slt.1 h2
    rwa [show (512#32 : BitVec 32).toInt = 512 from by decide] at this
  exact toNat_lt_of_toInt g1 g2

end Cert.SegPool

end
-- ==== Proof.Algebra.lean ====
/-
  The two orders of pooling agree on real inputs with word ids below 512.

  With ids below 512 the flat id of subword (b', s') is seg[b', s'] + 512 * b' with no wrap-around, so it is
  512 * b + g exactly when b' = b and seg[b, s'] = g: a sum over the flat subwords that land on word g of row b is a
  sum over the subwords s of row b that belong to word g. The count is then a natural number, max(count, 1) a real
  number at least 1, and over the reals dividing commutes with the finite sums and the head is linear:
  (sum over s of (sum over h of X[b,s,h] W[o,h]) hit[s]) / c = sum over h of W[o,h] ((sum over s of hit[s] X[b,s,h]) / c).
-/
import proofs.«423513_j59270548685358_3_alg».proof.Proof.Spec

noncomputable section

open scoped BigOperators

namespace Cert.SegPool

open Idealize.ShloMosaic Idealize.ShloMosaic.ValueIdx

/-- A finite sum of real numbers, read in the extended reals, is the sum of the terms read there. -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Flat subword 512 * a + s, and back. -/
def flatEquiv : Fin 64 × Fin 512 ≃ Fin 32768 where
  toFun p := ⟨p.1.val * 512 + p.2.val, by have := p.1.isLt; have := p.2.isLt; omega⟩
  invFun j := (rowOf j, colOf j)
  left_inv p := by
    have h1 := p.1.isLt; have h2 := p.2.isLt
    apply Prod.ext <;> apply Fin.ext <;> simp only [rowOf, colOf] <;> omega
  right_inv j := by
    apply Fin.ext; simp only [rowOf, colOf]; omega

theorem rowOf_flat (a : Fin 64) (s : Fin 512) : rowOf (flatEquiv (a, s)) = a :=
  congrArg Prod.fst (flatEquiv.left_inv (a, s))

theorem colOf_flat (a : Fin 64) (s : Fin 512) : colOf (flatEquiv (a, s)) = s :=
  congrArg Prod.snd (flatEquiv.left_inv (a, s))

/-- With ids below 512 the flat id does not wrap around. -/
theorem flatId_toNat (seg : SI.Idx → BitVec 32) (hs : InRange seg) (j : Fin 32768) :
    (flatId seg j).toNat = (seg (ix2 (rowOf j) (colOf j))).toNat + 512 * (rowOf j).val := by
  have h1 := hs (ix2 (rowOf j) (colOf j))
  have h2 := (rowOf j).isLt
  unfold flatId
  rw [BitVec.toNat_add, BitVec.toNat_mul, BitVec.toNat_ofNat, BitVec.toNat_ofNat]
  omega

/-- The flat id of subword (a, s) is word g of row b exactly when a = b and s belongs to word g. -/
theorem flatId_hit (seg : SI.Idx → BitVec 32) (hs : InRange seg) (b a : Fin 64) (g s : Fin 512) :
    (flatId seg (flatEquiv (a, s))).toNat = b.val * 512 + g.val ↔ a = b ∧ (seg (ix2 a s)).toNat = g.val := by
  rw [flatId_toNat seg hs, rowOf_flat, colOf_flat]
  have h1 := hs (ix2 a s)
  have h2 := g.isLt
  constructor
  · intro h
    have : a.val = b.val := by omega
    exact ⟨Fin.ext this, by omega⟩
  · rintro ⟨rfl, h⟩
    omega

/-- A sum over the flat subwords that land on word g of row b is a sum over the subwords of row b in word g. -/
theorem sum_flat (seg : SI.Idx → BitVec 32) (hs : InRange seg) (b : Fin 64) (g : Fin 512)
    (F : Fin 64 → Fin 512 → EReal) :
    (∑ j : Fin 32768, if (flatId seg j).toNat = b.val * 512 + g.val then F (rowOf j) (colOf j) else 0)
      = ∑ s : Fin 512, if (seg (ix2 b s)).toNat = g.val then F b s else 0 := by
  rw [← Equiv.sum_comp flatEquiv, Fintype.sum_prod_type]
  rw [Finset.sum_eq_single b]
  · refine Finset.sum_congr rfl fun s _ => ?_
    rw [rowOf_flat, colOf_flat]
    by_cases h : (seg (ix2 b s)).toNat = g.val
    · rw [if_pos h, if_pos ((flatId_hit seg hs b b g s).2 ⟨rfl, h⟩)]
    · rw [if_neg h, if_neg (fun h' => h ((flatId_hit seg hs b b g s).1 h').2)]
  · intro a _ hab
    refine Finset.sum_eq_zero fun s _ => ?_
    rw [if_neg (fun h' => hab ((flatId_hit seg hs b a g s).1 h').1)]
  · intro h; exact absurd (Finset.mem_univ b) h

/-- The two orders of pooling agree at every row, output and word. -/
theorem refPooled_eq_pooled (X : SX.Idx → EReal) (W : SW.Idx → EReal) (B : SB.Idx → EReal)
    (seg : SI.Idx → BitVec 32) (hX : AllReal X) (hW : AllReal W) (hs : InRange seg)
    (b : Fin 64) (o : Fin 128) (g : Fin 512) :
    refPooled X W B seg b o g = pooled X W B seg b o g := by
  choose x hx using hX
  choose w hw using hW
  -- membership of subword s in word g, as a real number
  obtain ⟨e, he'⟩ : ∃ e : Fin 512 → ℝ, e = fun s => if (seg (ix2 b s)).toNat = g.val then 1 else 0 := ⟨_, rfl⟩
  have he : ∀ s, hit seg b g s = (e s : EReal) := by
    intro s; simp only [hit, he']; split_ifs <;> simp
  have hcount : count seg b g = ((∑ s, e s : ℝ) : EReal) := by
    rw [coe_sum_real]; exact Finset.sum_congr rfl fun s _ => he s
  have hsegCount : segCount seg b g = count seg b g := by
    unfold segCount count
    rw [sum_flat seg hs b g (fun _ _ => 1)]
    rfl
  -- the divisor is a real number, at least 1
  obtain ⟨c, hc⟩ : ∃ c : ℝ, c = max (∑ s, e s) 1 := ⟨_, rfl⟩
  have hmax : max (count seg b g) 1 = (c : EReal) := by
    rw [hcount, hc, ← EReal.coe_one]
    exact (EReal.coe_strictMono.monotone.map_max).symm
  have hc0 : c ≠ 0 := by
    have : (1 : ℝ) ≤ c := hc ▸ le_max_right _ _
    linarith
  have hsegSum : ∀ h, segSum X seg b g h = ((∑ s, e s * x (ix3 b s h) : ℝ) : EReal) := by
    intro h
    unfold segSum
    rw [sum_flat seg hs b g (fun a s => X (ix3 a s h)), coe_sum_real]
    refine Finset.sum_congr rfl fun s _ => ?_
    simp only [he', hx]; split_ifs <;> simp
  unfold refPooled pooled
  rw [hsegCount, hmax]
  refine congrArg (· + B (ix1 o)) ?_
  simp only [hsegSum, Ideal.div_coe hc0, proj, hx, hw, he]
  simp only [← EReal.coe_mul, ← coe_sum_real]
  refine congrArg (fun r : ℝ => (r : EReal)) ?_
  simp only [Finset.sum_mul, Finset.mul_sum]
  rw [Finset.sum_comm]
  refine Finset.sum_congr rfl fun s _ => Finset.sum_congr rfl fun h _ => ?_
  ring

/-- On real inputs with every word id below 512, pooling the features and then applying the head is applying the
    head and then pooling. -/
theorem R_eq_G (X : SX.Idx → EReal) (W : SW.Idx → EReal) (B : SB.Idx → EReal) (seg : SI.Idx → BitVec 32)
    (hX : AllReal X) (hW : AllReal W) (hB : AllReal B) (hs : InRange seg) :
    R X W B seg = G X W B seg := by
  funext i
  exact refPooled_eq_pooled X W B seg hX hW hs (i 0) (i 1) (wordOf (i 2))

end Cert.SegPool

end
-- ==== Proof.LibScatter.lean ====
/-
  The host's accumulating scatter and its gather READ AT AN INDEX, at the ideal instance, for the two shapes a
  segment sum and a take along axis 0 have: a vector [N] (indices [M, 1], updates [M]) and rows [N, C] (indices
  [M, 1], updates [M, C]). Every lemma is over an arbitrary dimension-number record whose fields are fixed by
  hypotheses, each closed by rfl on a program's own record.

  scatterAdd_vec / scatterAdd_rows: the scatter at an element is the operand's element plus the sum, over the
  updates (rows), of those whose start index read SIGNED is the element's (row) index; scatterAdd_vec_toNat /
  scatterAdd_rows_toNat: the same with the index read unsigned, for 32-bit indices and N < 2³¹. gather_vec /
  gather_rows: the gather at a position whose start index is in range is the operand at that index.
  pad_vec_apply / pad_rows_apply: a padding after the end (of the rows) at an index; concatenate_vec_left /
  concatenate_vec_right: two vectors end to end at an index. sum_idx1, sum_fin_split, sum_fin_padded: a sum over a
  rank-1 index set, over a range cut in two, over a padded range.
-/
import Idealize.ShloMosaic.Lib.ValueIdx
import Idealize.ShloMosaic.Lib.StableHlo.Predicate
import Idealize.ShloMosaic.Lib.Pipeline.Value
import Mathlib.Algebra.BigOperators.Fin

noncomputable section

open scoped BigOperators

namespace Cert.LibScatter

open Idealize.ShloMosaic Idealize.ShloMosaic.ValueIdx

/-! ## Where an update lands: the vector shape -/

/-- For an operand [N], scatter indices [M, 1] and updates [M] (one inserted window axis, no update window axis):
    update j lands on element i exactly when its start index, read signed, is i. -/
theorem resultIdx?_vec {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (j : Fin M) (i : Fin N) :
    d.resultIdx? (ix1 j) idx = some (ix1 i) ↔ (idx (ix2 j (0 : Fin 1))).toInt = (i.val : ℤ) := by
  obtain ⟨uw, iw, sd, iv, wf⟩ := d
  simp only at h1 h2 h3 h4
  subst h1 h2 h3 h4
  have hstart : ∀ a, ScatterDims.start ⟨[], [0], [0], 1, wf⟩ (ix1 j) idx a = (idx (ix2 j (0 : Fin 1))).toInt := by
    intro a
    obtain rfl : a = 0 := Subsingleton.elim _ _
    unfold ScatterDims.start
    rw [dif_pos (List.mem_singleton.mpr rfl)]
    congr 2
    funext b
    match b with
    | ⟨0, _⟩ => rfl
    | ⟨1, _⟩ => rfl
  have hwin : ∀ a, ScatterDims.window ⟨[], [0], [0], 1, wf⟩ (ix1 j) a = 0 := by
    intro a
    obtain rfl : a = 0 := Subsingleton.elim _ _
    unfold ScatterDims.window
    rw [dif_neg (by simp [ScatterDims.sKept, Shape.kept])]
  unfold ScatterDims.resultIdx?
  simp only [hstart, hwin, Nat.cast_zero, add_zero]
  constructor
  · intro h
    split_ifs at h with hc
    have h0 := congrArg Fin.val (congrFun (Option.some.inj h) 0)
    have hc0 := hc 0
    simp only [Matrix.cons_val_zero] at hc0
    change (idx (ix2 j (0 : Fin 1))).toInt.toNat = i.val at h0
    omega
  · intro h
    have hc : ∀ a : Fin 1, 0 ≤ (idx (ix2 j (0 : Fin 1))).toInt ∧ (idx (ix2 j (0 : Fin 1))).toInt < ((![N] a : ℕ) : ℤ) := by
      intro a
      obtain rfl : a = 0 := Subsingleton.elim _ _
      simp only [Matrix.cons_val_zero]
      have := i.isLt
      omega
    rw [dif_pos hc]
    congr 1
    funext a
    obtain rfl : a = 0 := Subsingleton.elim _ _
    apply Fin.ext
    change (idx (ix2 j (0 : Fin 1))).toInt.toNat = i.val
    omega

/-! ## Where an update lands: rows -/

section Rows
variable {N C M w : Nat} (d : ScatterDims ⟨2, ![N, C]⟩ ⟨2, ![M, 1]⟩ ⟨2, ![M, C]⟩)
  (h1 : d.updateWindowDims = [1]) (h2 : d.insertedWindowDims = [0]) (h3 : d.scatterDimsToOperandDims = [0])
  (h4 : d.indexVectorDim = 1) (idx : IVec ⟨2, ![M, 1]⟩ w) (j : Fin M) (c' : Fin C)
include h1 h2 h3 h4

/-- On the row axis an update's window starts at its start index, read signed. -/
theorem start_rows_zero : d.start (ix2 j c') idx 0 = (idx (ix2 j (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- On the column axis, which the start index map does not name, the window starts at 0. -/
theorem start_rows_one : d.start (ix2 j c') idx 1 = 0 := by
  obtain ⟨uw, iw, sd, iv, wf⟩ := d
  simp only at h1 h2 h3 h4
  subst h1 h2 h3 h4
  unfold ScatterDims.start
  rw [dif_neg (by simp)]

/-- The row axis is an inserted window axis: the window coordinate there is 0. -/
theorem window_rows_zero : d.window (ix2 j c') 0 = 0 := by
  obtain ⟨uw, iw, sd, iv, wf⟩ := d
  simp only at h1 h2 h3 h4
  subst h1 h2 h3 h4
  unfold ScatterDims.window
  rw [dif_neg (by simp [ScatterDims.sKept, Shape.kept])]

/-- On the column axis the window coordinate is the update's column. -/
theorem window_rows_one : d.window (ix2 j c') 1 = c'.val := by
  obtain ⟨uw, iw, sd, iv, wf⟩ := d
  simp only at h1 h2 h3 h4
  subst h1 h2 h3 h4
  unfold ScatterDims.window
  rw [dif_pos (by simp [ScatterDims.sKept, Shape.kept])]
  rfl

/-- For an operand [N, C], scatter indices [M, 1] and updates [M, C] (the row axis inserted, the column axis the
    update window): update (j, c') lands on element (i, c) exactly when its start index, read signed, is i and
    c' = c. -/
theorem resultIdx?_rows (i : Fin N) (c : Fin C) :
    d.resultIdx? (ix2 j c') idx = some (ix2 i c) ↔ (idx (ix2 j (0 : Fin 1))).toInt = (i.val : ℤ) ∧ c' = c := by
  have s0 := start_rows_zero d h1 h2 h3 h4 idx j c'
  have s1 := start_rows_one d h1 h2 h3 h4 idx j c'
  have w0 := window_rows_zero d h1 h2 h3 h4 j c'
  have w1 := window_rows_one d h1 h2 h3 h4 j c'
  unfold ScatterDims.resultIdx?
  constructor
  · intro h
    split_ifs at h with hc
    have e := Option.some.inj h
    have e0 : (d.start (ix2 j c') idx 0 + (d.window (ix2 j c') 0 : ℕ)).toNat = i.val :=
      congrArg Fin.val (congrFun e 0)
    have e1 : (d.start (ix2 j c') idx 1 + (d.window (ix2 j c') 1 : ℕ)).toNat = c.val :=
      congrArg Fin.val (congrFun e 1)
    have hc0 := (hc 0).1
    rw [s0, w0] at e0 hc0
    rw [s1, w1] at e1
    refine ⟨by omega, Fin.ext (by omega)⟩
  · rintro ⟨ht, rfl⟩
    have hi := i.isLt
    have hc' := c'.isLt
    have hc : ∀ a : Fin 2, 0 ≤ d.start (ix2 j c') idx a + (d.window (ix2 j c') a : ℕ) ∧
        d.start (ix2 j c') idx a + (d.window (ix2 j c') a : ℕ) < ((![N, C] a : ℕ) : ℤ) := by
      refine Fin.forall_fin_two.mpr ⟨?_, ?_⟩
      · rw [s0, w0]; simp only [Matrix.cons_val_zero]; omega
      · rw [s1, w1]; simp only [Matrix.cons_val_one, Matrix.cons_val_zero]; omega
    rw [dif_pos hc]
    congr 1
    funext a
    apply Fin.ext
    revert a
    refine Fin.forall_fin_two.mpr ⟨?_, ?_⟩
    · show (d.start (ix2 j c') idx 0 + (d.window (ix2 j c') 0 : ℕ)).toNat = i.val
      rw [s0, w0]; omega
    · show (d.start (ix2 j c') idx 1 + (d.window (ix2 j c') 1 : ℕ)).toNat = c'.val
      rw [s1, w1]; omega

end Rows

/-! ## Sums over a rank-1 index set -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## The accumulating scatter read at an index -/

/-- (S1) The accumulating scatter into a VECTOR [N] at scatter indices [M, 1] with updates [M], read at element i:
    the operand's element plus the sum of the updates whose start index, read signed and not clamped, is i (an
    update whose index is outside the operand contributes nothing). -/
theorem scatterAdd_vec {φ : FTy} {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ w)
    (upd : FVec Ideal ⟨1, ![M]⟩ φ) (i : Fin N) :
    Host.scatterAdd (F := Ideal) d x idx upd (ix1 i) =
      x (ix1 i) + ∑ j : Fin M, if (idx (ix2 j (0 : Fin 1))).toInt = (i.val : ℤ) then upd (ix1 j) else 0 := by
  show x (ix1 i) + ∑ j ∈ Finset.univ.filter (fun j => d.resultIdx? j idx = some (ix1 i)), upd j = _
  congr 1
  rw [Finset.sum_filter, sum_idx1]
  exact Finset.sum_congr rfl fun j _ => if_congr (resultIdx?_vec d h1 h2 h3 h4 idx j i) rfl rfl

/-- (S2) The accumulating scatter of ROWS into [N, C] at scatter indices [M, 1] with updates [M, C], read at
    element (i, c): the operand's element plus the sum over the updates' rows whose start index, read signed and
    not clamped, is i, of their column c. -/
theorem scatterAdd_rows {φ : FTy} {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ w)
    (upd : FVec Ideal ⟨2, ![M, C]⟩ φ) (i : Fin N) (c : Fin C) :
    Host.scatterAdd (F := Ideal) d x idx upd (ix2 i c) =
      x (ix2 i c) + ∑ j : Fin M, if (idx (ix2 j (0 : Fin 1))).toInt = (i.val : ℤ) then upd (ix2 j c) else 0 := by
  show x (ix2 i c) + ∑ jj ∈ Finset.univ.filter (fun jj => d.resultIdx? jj idx = some (ix2 i c)), upd jj = _
  congr 1
  rw [Finset.sum_filter, sum_idx2]
  refine Finset.sum_congr rfl fun j _ => ?_
  rw [Finset.sum_congr rfl fun b _ => if_congr (resultIdx?_rows d h1 h2 h3 h4 idx j b i c) rfl rfl]
  by_cases ht : (idx (ix2 j (0 : Fin 1))).toInt = (i.val : ℤ)
  · simp only [ht, true_and, if_true]
    rw [Finset.sum_ite_eq' Finset.univ c (fun b => upd (ix2 j b)), if_pos (Finset.mem_univ c)]
  · simp only [ht, false_and, if_false, Finset.sum_const_zero]

/-! ## The same with the start index read unsigned -/

/-- A word reads i signed exactly when it reads i unsigned, for i below half the word range (a word at or above
    half the range reads negative signed). -/
theorem toInt_eq_natCast_iff {w : Nat} (a : BitVec w) (i : Nat) (hi : 2 * i < 2 ^ w) :
    a.toInt = (i : ℤ) ↔ a.toNat = i := by
  have ha := a.isLt
  rw [BitVec.toInt_eq_toNat_cond]
  split_ifs with h
  · exact Nat.cast_inj
  · constructor
    · intro e
      have : (2 ^ w : ℤ) = ((2 ^ w : ℕ) : ℤ) := by push_cast; rfl
      omega
    · intro e
      omega

/-- (S1') The accumulating scatter into a vector [N], N < 2³¹, at 32-bit indices, read at element i, with the
    start index read UNSIGNED: an index at or above 2³¹ is negative read signed and lands nowhere, and it is not
    i read unsigned either. -/
theorem scatterAdd_vec_toNat {φ : FTy} {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ 32)
    (upd : FVec Ideal ⟨1, ![M]⟩ φ) (hN : N < 2 ^ 31) (i : Fin N) :
    Host.scatterAdd (F := Ideal) d x idx upd (ix1 i) =
      x (ix1 i) + ∑ j : Fin M, if (idx (ix2 j (0 : Fin 1))).toNat = i.val then upd (ix1 j) else 0 := by
  rw [scatterAdd_vec d h1 h2 h3 h4]
  congr 1
  refine Finset.sum_congr rfl fun j _ => if_congr ?_ rfl rfl
  exact toInt_eq_natCast_iff _ _ (by have := i.isLt; omega)

/-- (S2') The accumulating scatter of rows into [N, C], N < 2³¹, at 32-bit indices, read at element (i, c), with
    the start index read UNSIGNED. -/
theorem scatterAdd_rows_toNat {φ : FTy} {N C M : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ 32)
    (upd : FVec Ideal ⟨2, ![M, C]⟩ φ) (hN : N < 2 ^ 31) (i : Fin N) (c : Fin C) :
    Host.scatterAdd (F := Ideal) d x idx upd (ix2 i c) =
      x (ix2 i c) + ∑ j : Fin M, if (idx (ix2 j (0 : Fin 1))).toNat = i.val then upd (ix2 j c) else 0 := by
  rw [scatterAdd_rows d h1 h2 h3 h4]
  congr 1
  refine Finset.sum_congr rfl fun j _ => if_congr ?_ rfl rfl
  exact toInt_eq_natCast_iff _ _ (by have := i.isLt; omega)

/-! ## The gather read at an index -/

/-- (G1) The gather from a VECTOR [N], N < 2³¹, at 32-bit start indices [M, 1] (the operand's one axis collapsed
    and start-indexed, the index vector on axis 1), read at result position j whose start index is in range: the
    operand at that index (in range nothing is clamped). -/
theorem gather_vec {α : Type} {N M : Nat} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ 32) (hN : N < 2 ^ 31) (j : Fin M)
    (hr : (idx (ix2 j (0 : Fin 1))).toNat < N) :
    Host.gather d x idx (ix1 j) = x (ix1 ⟨(idx (ix2 j (0 : Fin 1))).toNat, hr⟩) := by
  have e1 : (ix1 j : (⟨1, ![M]⟩ : Shape).Idx) = Shape.Idx.ofFin j := by
    funext a
    obtain rfl : a = 0 := Subsingleton.elim _ _
    rfl
  have e2 : StableHlo.Predicate.ixP j = ix2 j (0 : Fin 1) := by
    funext b
    match b with
    | ⟨0, _⟩ => rfl
    | ⟨1, _⟩ => rfl
  rw [e1, StableHlo.Predicate.gather_take d hcoll hob hsim hivd x idx j (by omega)]
  congr 1
  funext a
  obtain rfl : a = 0 := Subsingleton.elim _ _
  apply Fin.ext
  show min (idx (StableHlo.Predicate.ixP j)).toInt.toNat (N - 1) = (idx (ix2 j (0 : Fin 1))).toNat
  rw [e2, StableHlo.Predicate.toInt_eq_toNat_of_lt (by omega), Int.toNat_natCast]
  omega

section GatherRows
variable {N C M w : Nat} (d : GatherDims ⟨2, ![N, C]⟩ ⟨2, ![M, 1]⟩ ⟨2, ![M, C]⟩)
  (hoff : d.offsetDims = [1]) (hcoll : d.collapsedSliceDims = [0]) (hob : d.operandBatchingDims = [])
  (hsim : d.startIndexMap = [0]) (hivd : d.indexVectorDim = 1) (j : Fin M) (c : Fin C)
include hoff hcoll hob hsim hivd

/-- Result position (j, c) reads its start index at (j, 0) of the start indices. -/
theorem siIdx_rows (k : Fin d.startIndexMap.length) : d.siIdx (ix2 j c) k = ix2 j (0 : Fin 1) := by
  obtain ⟨od, cd, ob, sb, sm, iv, ss, wf⟩ := d
  simp only at hoff hcoll hob hsim hivd
  subst hoff hcoll hob hsim hivd
  have hk : k.val = 0 := by
    have := k.isLt
    simpa using this
  funext b
  apply Fin.ext
  match b with
  | ⟨0, _⟩ => rfl
  | ⟨1, _⟩ => exact hk

/-- On the column axis the offset coordinate is the result's column. -/
theorem offCoord_rows_one : d.offCoord (ix2 j c) 1 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end GatherRows

/-- (G2) The gather of ROWS from [N, C], N < 2³¹, at 32-bit start indices [M, 1] (the row axis collapsed and
    start-indexed, the column axis the one offset axis, the index vector on axis 1), read at (j, c) when row j's
    start index is in range: the operand at that row, column c. -/
theorem gather_rows {α : Type} {N C M : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ 32) (hN : N < 2 ^ 31) (j : Fin M) (c : Fin C)
    (hr : (idx (ix2 j (0 : Fin 1))).toNat < N) :
    Host.gather d x idx (ix2 j c) = x (ix2 ⟨(idx (ix2 j (0 : Fin 1))).toNat, hr⟩ c) := by
  have hb : ∀ a, a ∉ d.operandBatchingDims := by
    intro a
    rw [hob]
    exact List.not_mem_nil
  have hsl : d.sliceSizes 0 = 1 := d.slice_collapsed 0 (by rw [hcoll]; exact List.mem_singleton.mpr rfl)
  unfold Host.gather
  congr 1
  funext a
  apply Fin.ext
  revert a
  refine Fin.forall_fin_two.mpr ⟨?_, ?_⟩
  · show d.start (ix2 j c) idx 0 + d.batchCoord (ix2 j c) 0 + d.offCoord (ix2 j c) 0
      = (idx (ix2 j (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_rows d hoff hcoll hob hsim hivd, hsl,
      StableHlo.Predicate.toInt_eq_toNat_of_lt (by omega), Int.toNat_natCast]
    show min (idx (ix2 j (0 : Fin 1))).toNat (N - 1) + 0 + 0 = _
    omega
  · show d.start (ix2 j c) idx 1 + d.batchCoord (ix2 j c) 1 + d.offCoord (ix2 j c) 1 = c.val
    rw [d.batchCoord_eq_zero _ _ (hb _), offCoord_rows_one d hoff hcoll hob hsim hivd]
    unfold GatherDims.start
    rw [dif_neg (by rw [hsim]; simp)]
    omega

/-! ## A padding and a two-piece concatenation along axis 0, read at an index -/

/-- (P) A VECTOR [N] padded after its end only (low 0, interior 0) to [T], read at k: the vector below its extent,
    the padding scalar at or above it. -/
theorem pad_vec_apply {α : Type} {N T : Nat} (hi : Fin 1 → Nat) (x : (⟨1, ![N]⟩ : Shape).Idx → α)
    (v : (⟨0, ![]⟩ : Shape).Idx → α) (h : (⟨1, ![N]⟩ : Shape).Pads ![0] hi ![0] ⟨1, ![T]⟩)
    (hu : 0 < (⟨0, ![]⟩ : Shape).numel) (k : Fin T) :
    pad ⟨1, ![T]⟩ ![0] hi ![0] x v h hu (ix1 k) = if hk : k.val < N then x (ix1 ⟨k.val, hk⟩) else v ix0 := by
  unfold pad
  split_ifs with hin hk hk
  · congr 1
    funext a
    obtain rfl : a = 0 := Subsingleton.elim _ _
    apply Fin.ext
    show (k.val - 0) / (0 + 1) = k.val
    omega
  · exfalso
    have := (hin 0).2.2
    change (k.val - 0) / (0 + 1) < N at this
    omega
  · exfalso
    refine hin fun a => ?_
    obtain rfl : a = 0 := Subsingleton.elim _ _
    show 0 ≤ k.val ∧ (k.val - 0) % (0 + 1) = 0 ∧ (k.val - 0) / (0 + 1) < N
    omega
  · exact congrArg v (eq_ix0 _)

/-- (P) ROWS [N, C] padded after the last row only (low 0, interior 0; the column axis not padded) to [T, C], read
    at (k, c): the rows below their extent, the padding scalar at or above it. -/
theorem pad_rows_apply {α : Type} {N C T : Nat} (hi : Fin 2 → Nat) (x : (⟨2, ![N, C]⟩ : Shape).Idx → α)
    (v : (⟨0, ![]⟩ : Shape).Idx → α) (h : (⟨2, ![N, C]⟩ : Shape).Pads ![0, 0] hi ![0, 0] ⟨2, ![T, C]⟩)
    (hu : 0 < (⟨0, ![]⟩ : Shape).numel) (k : Fin T) (c : Fin C) :
    pad ⟨2, ![T, C]⟩ ![0, 0] hi ![0, 0] x v h hu (ix2 k c)
      = if hk : k.val < N then x (ix2 ⟨k.val, hk⟩ c) else v ix0 := by
  have hc := c.isLt
  unfold pad
  split_ifs with hin hk hk
  · congr 1
    funext a
    apply Fin.ext
    revert a
    refine Fin.forall_fin_two.mpr ⟨?_, ?_⟩
    · show (k.val - 0) / (0 + 1) = k.val
      omega
    · show (c.val - 0) / (0 + 1) = c.val
      omega
  · exfalso
    have := (hin 0).2.2
    change (k.val - 0) / (0 + 1) < N at this
    omega
  · exfalso
    refine hin (Fin.forall_fin_two.mpr ⟨?_, ?_⟩)
    · show 0 ≤ k.val ∧ (k.val - 0) % (0 + 1) = 0 ∧ (k.val - 0) / (0 + 1) < N
      omega
    · show 0 ≤ c.val ∧ (c.val - 0) % (0 + 1) = 0 ∧ (c.val - 0) / (0 + 1) < C
      omega
  · exact congrArg v (eq_ix0 _)

/-- (C) Two vectors [N₁], [N₂] concatenated to [T], read at a position below the first extent: the first. -/
theorem concatenate_vec_left {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : k.val < N₁) :
    concatenate ⟨1, ![T]⟩ 0 [⟨⟨1, ![N₁]⟩, a⟩, ⟨⟨1, ![N₂]⟩, b⟩] h (ix1 k) = a (ix1 ⟨k.val, hk⟩) := by
  refine concatenate_pair_apply_left 0 a b h (ix1 k) rfl (ix1 ⟨k.val, hk⟩) fun c => ?_
  obtain rfl : c = 0 := Subsingleton.elim _ _
  rfl

/-- (C) Two vectors [N₁], [N₂] concatenated to [T], read at a position at or above the first extent: the second,
    the first extent less. -/
theorem concatenate_vec_right {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : N₁ ≤ k.val)
    (hk2 : k.val - N₁ < N₂) :
    concatenate ⟨1, ![T]⟩ 0 [⟨⟨1, ![N₁]⟩, a⟩, ⟨⟨1, ![N₂]⟩, b⟩] h (ix1 k) = b (ix1 ⟨k.val - N₁, hk2⟩) := by
  refine concatenate_pair_apply_right 0 a b h (ix1 k) rfl rfl (ix1 ⟨k.val - N₁, hk2⟩) (fun c hc => ?_) ?_
  · obtain rfl : c = 0 := Subsingleton.elim _ _
    exact absurd rfl hc
  · show k.val - N₁ + N₁ = k.val
    omega

/-! ## Sums over a range cut in two, and over a padded range -/

/-- A sum over [0, T) with T = N₁ + N₂ is the sum over [0, N₁) plus the sum over [N₁, T), the latter re-indexed
    from 0. -/
theorem sum_fin_split {A : Type*} [AddCommMonoid A] {N₁ N₂ T : Nat} (hT : T = N₁ + N₂) (f : Fin T → A) :
    ∑ k : Fin T, f k
      = ∑ k : Fin N₁, f ⟨k.val, by have := k.isLt; omega⟩ + ∑ k : Fin N₂, f ⟨N₁ + k.val, by have := k.isLt; omega⟩ := by
  subst hT
  rw [Fin.sum_univ_add]
  rfl

/-- A sum over a padded range [0, T) of a family that is zero at and above N ≤ T is the sum over [0, N). -/
theorem sum_fin_padded {A : Type*} [AddCommMonoid A] {N T : Nat} (hNT : N ≤ T) (f : Fin N → A) :
    ∑ k : Fin T, (if hk : k.val < N then f ⟨k.val, hk⟩ else 0) = ∑ k : Fin N, f k := by
  obtain ⟨H, rfl⟩ := Nat.exists_eq_add_of_le hNT
  rw [Fin.sum_univ_add]
  have h2 : ∑ k : Fin H, (if hk : (Fin.natAdd N k).val < N then f ⟨(Fin.natAdd N k).val, hk⟩ else 0) = 0 :=
    Finset.sum_eq_zero fun k _ => dif_neg (by simp)
  rw [h2, add_zero]
  refine Finset.sum_congr rfl fun k _ => ?_
  rw [dif_pos (by simp)]
  rfl

end Cert.LibScatter
-- ==== Proof.RefRead.lean ====
/-
  The reference program's result, one operation at a time, is the array R of Spec.lean: the flat word id of
  subword j is seg + 512 * row; the two accumulating scatters into zero arrays are, at row f, the sums over the flat
  subwords whose flat id read as a natural number is f (of their features, and of ones); the quotient by
  max(count, 1), regrouped by row, loses word 0, is contracted with the weight over the features, and gets the bias.

  Each stage is read at an index from its operands; the only arithmetic on indices is that row f of a flat array is
  entry (f / 512, f % 512) of the grouped one, and that entry (b, g) of the grouped one is row 512 * b + g. The zero
  word is the number 0 and the word 0x3F800000 the number 1.
-/
import proofs.«423513_j59270548685358_3_alg».proof.Proof.Spec
import proofs.«423513_j59270548685358_3_alg».proof.Proof.LibScatter
import proofs.«423513_j59270548685358_3_alg».proof.Proof.Gen.ReferenceIdeal.Read

noncomputable section

open scoped BigOperators

namespace Cert.SegPool

open Idealize.ShloMosaic Idealize.ShloMosaic.ValueIdx
open Cert.ReferenceIdeal Cert.ReferenceIdeal.Read

namespace RefRead

/-- The word 0x3F800000 is the number one. -/
theorem ofBits_one_f32 : Ideal.ofBits .f32 0x3F800000#32 = 1 := by
  simp [Ideal.ofBits, Ideal.ieee, -EReal.coe_mul]; norm_num

/-- Position j of the flattened id array is entry (row j, column j) of the id array. -/
theorem flat_idx (j : Fin 32768) :
    idx_main_v6 (idx_main_v9 (ix2 j (0 : Fin 1))) = ix2 (rowOf j) (colOf j) := by
  funext a
  match a with
  | ⟨0, _⟩ => rfl
  | ⟨1, _⟩ => rfl

/-- The scatter index of update j is the flat word id of subword j. -/
theorem v9_apply (x3 : (⟨S64x512, .i32⟩ : BufTy).Contents (Elt Ideal)) (j : Fin 32768) :
    val_main_v9 (F := Ideal) x3 (ix2 j (0 : Fin 1)) = flatId x3 j := by
  rw [val_main_v9_apply, val_main_v6_apply, val_main_v5_apply, val_main_v4_apply, val_main_v3_apply,
    val_main_v1_apply, val_main_v2_apply, val_main_v0_apply, val_main_c_apply, flat_idx]
  rfl

theorem v13_apply (x3 : (⟨S64x512, .i32⟩ : BufTy).Contents (Elt Ideal)) (j : Fin 32768) :
    val_main_v13 (F := Ideal) x3 (ix2 j (0 : Fin 1)) = flatId x3 j := v9_apply x3 j

/-- Row j, column h of the flattened feature array is feature h of subword (row j, column j). -/
theorem v7_apply (x0 : (⟨S64x512x768, .f32⟩ : BufTy).Contents (Elt Ideal)) (j : Fin 32768) (h : Fin 768) :
    val_main_v7 (F := Ideal) x0 (ix2 j h) = x0 (ix3 (rowOf j) (colOf j) h) := by
  rw [val_main_v7_apply]
  congr 1
  funext a
  apply Fin.ext
  have hj := j.isLt
  have hh := h.isLt
  match a with
  | ⟨0, _⟩ => show (j.val * 768 + h.val) / 393216 = j.val / 512; omega
  | ⟨1, _⟩ => show (j.val * 768 + h.val) / 768 % 512 = j.val % 512; omega
  | ⟨2, _⟩ => show (j.val * 768 + h.val) % 768 = h.val; omega

/-- The feature scatter at row f, column h: feature h summed over the subwords whose flat id is f. -/
theorem v10_apply (x0 : (⟨S64x512x768, .f32⟩ : BufTy).Contents (Elt Ideal))
    (x3 : (⟨S64x512, .i32⟩ : BufTy).Contents (Elt Ideal)) (f : Fin 32768) (h : Fin 768) :
    val_main_v10 (F := Ideal) x0 x3 (ix2 f h)
      = ∑ j : Fin 32768, if (flatId x3 j).toNat = f.val then x0 (ix3 (rowOf j) (colOf j) h) else 0 := by
  unfold val_main_v10
  rw [Cert.LibScatter.scatterAdd_rows_toNat _ rfl rfl rfl rfl _ _ _ (by norm_num), val_main_v8_apply,
    val_main_cst_apply, Ideal.ofBits_def, Ideal.ofBits_zero_f32, zero_add]
  refine Finset.sum_congr rfl fun j _ => ?_
  rw [v9_apply, v7_apply]

/-- The ones scatter at row f: the number of subwords whose flat id is f. -/
theorem v14_apply (x3 : (⟨S64x512, .i32⟩ : BufTy).Contents (Elt Ideal)) (f : Fin 32768) :
    val_main_v14 (F := Ideal) x3 (ix2 f (0 : Fin 1))
      = ∑ j : Fin 32768, if (flatId x3 j).toNat = f.val then (1 : EReal) else 0 := by
  unfold val_main_v14
  rw [Cert.LibScatter.scatterAdd_rows_toNat _ rfl rfl rfl rfl _ _ _ (by norm_num), val_main_v12_apply,
    val_main_cst_1_apply, Ideal.ofBits_def, Ideal.ofBits_zero_f32, zero_add]
  refine Finset.sum_congr rfl fun j _ => ?_
  rw [v13_apply, val_main_v11_apply, val_main_cst_0_apply, Ideal.ofBits_def, ofBits_one_f32]

/-- Flat row 512 * b + g. -/
def flatRow (b : Fin 64) (g : Fin 512) : Fin 32768 := ⟨b.val * 512 + g.val, by have := b.isLt; have := g.isLt; omega⟩

/-- Entry (b, g' + 1, k) of the regrouped quotient is row 512 * b + g' + 1, column k of the flat one. -/
theorem quot_idx (b : Fin 64) (o : Fin 128) (g' : Fin 511) (k : Fin 768) :
    idx_main_v19 (idx_main_v20 (ridx_main_v21 (idx_main_v22 (ix3 b o g')) k)) = ix2 (flatRow b (wordOf g')) k := by
  funext a
  apply Fin.ext
  have hb := b.isLt
  have hg := g'.isLt
  have hk := k.isLt
  match a with
  | ⟨0, _⟩ => show ((b.val * 512 + (1 + g'.val)) * 768 + k.val) / 768 = b.val * 512 + (g'.val + 1); omega
  | ⟨1, _⟩ => show ((b.val * 512 + (1 + g'.val)) * 768 + k.val) % 768 = k.val; omega

theorem weight_idx (b : Fin 64) (o : Fin 128) (g' : Fin 511) (k : Fin 768) :
    lidx_main_v21 (idx_main_v22 (ix3 b o g')) k = ix2 o k := by
  funext a
  match a with
  | ⟨0, _⟩ => rfl
  | ⟨1, _⟩ => rfl

theorem count_idx (f : Fin 32768) (k : Fin 768) : idx_main_v17 (ix2 f k) = ix2 f (0 : Fin 1) := by
  funext a
  match a with
  | ⟨0, _⟩ => rfl
  | ⟨1, _⟩ => rfl

theorem bias_idx (b : Fin 64) (o : Fin 128) (g' : Fin 511) :
    idx_main_v23 (idx_main_v24 (ix3 b o g')) = ix1 o := by
  funext a
  match a with
  | ⟨0, _⟩ => rfl

end RefRead

open RefRead

/-- The reference's last stage is R of its four arguments. -/
theorem ref_eq_R (x0 : (⟨Cert.ReferenceIdeal.S64x512x768, .f32⟩ : BufTy).Contents (Elt Ideal))
    (x1 : (⟨Cert.ReferenceIdeal.S128x768, .f32⟩ : BufTy).Contents (Elt Ideal))
    (x2 : (⟨Cert.ReferenceIdeal.S128, .f32⟩ : BufTy).Contents (Elt Ideal))
    (x3 : (⟨Cert.ReferenceIdeal.S64x512, .i32⟩ : BufTy).Contents (Elt Ideal)) :
    Cert.ReferenceIdeal.Read.val_main_v25 (F := Ideal) x0 x1 x2 x3 = R x0 x1 x2 x3 := by
  funext i
  obtain ⟨b, o, g', rfl⟩ : ∃ (b : Fin 64) (o : Fin 128) (g' : Fin 511), i = ix3 b o g' := ⟨i 0, i 1, i 2, eq_ix3 i⟩
  show _ = refPooled x0 x1 x2 x3 b o (wordOf g')
  unfold refPooled
  rw [val_main_v25_apply, Ideal.addf_def, val_main_v22_apply, val_main_v24_apply, val_main_v23_apply,
    val_main_v21_apply, bias_idx]
  congr 1
  refine Finset.sum_congr rfl fun k _ => ?_
  rw [weight_idx, val_main_v20_apply, val_main_v19_apply, quot_idx, val_main_v18_apply, Ideal.hostDivf_def,
    v10_apply, val_main_v17_apply, count_idx, val_main_v16_apply, Ideal.maximumf_def, v14_apply,
    val_main_v15_apply, val_main_cst_2_apply, Ideal.ofBits_def, ofBits_one_f32]
  rfl

end Cert.SegPool

end
-- ==== Proof.LibCast3.lean ====
/-
  Four re-layouts of rank-2 and rank-3 arrays read at an entry, over coordinates (general: any sizes a, b, c).

  An [a, b, c] array and an [a*b, c] array hold the same entries in the same row-major order: row kk of the second is
  (kk / b, kk % b) of the first, and (g, r) of the first is row g*b + r of the second. An [a, c] array seen as [a, 1, c] keeps
  its entries; an [a, 1, c] array spread along the middle axis to [a, b, c] repeats entry (g, 0, n) at every (g, r, n).
-/
import Idealize.ShloMosaic.Lib.ValueIdx
import Idealize.ShloMosaic.Lib.ValueLayout
import Idealize.ShloMosaic.Lib.Pipeline.Value

noncomputable section

namespace Cert.LibCast3

open Idealize.ShloMosaic Idealize.ShloMosaic.ValueIdx

variable {α : Type}

/-- [a, b, c] seen as [m, c] with m = a * b: row kk is (kk / b, kk % b). -/
theorem cast_abc_mc {a b c m : ℕ} (hm : m = a * b) (hb : 0 < b) (x : (⟨3, ![a, b, c]⟩ : Shape).Idx → α)
    (h : (⟨3, ![a, b, c]⟩ : Shape).ShapeCasts ⟨2, ![m, c]⟩) (kk : Fin m) (n : Fin c) :
    shapeCast ⟨2, ![m, c]⟩ x h (ix2 kk n)
      = x (ix3 (⟨kk.val / b, Nat.div_lt_of_lt_mul (lt_of_lt_of_eq kk.isLt (hm.trans (Nat.mul_comm a b)))⟩ : Fin a)
            (⟨kk.val % b, Nat.mod_lt _ hb⟩ : Fin b) n) :=
  shapeCast_apply x h _ _ (by
    rw [Shape.rowMajor_val_three, Shape.rowMajor_val_two]
    show (kk.val / b * b + kk.val % b) * c + n.val = kk.val * c + n.val
    rw [Nat.div_add_mod'])

/-- [m, c] seen as [a, b, c] with m = a * b: (g, r) is row g * b + r. -/
theorem cast_mc_abc {a b c m : ℕ} (hm : m = a * b) (x : (⟨2, ![m, c]⟩ : Shape).Idx → α)
    (h : (⟨2, ![m, c]⟩ : Shape).ShapeCasts ⟨3, ![a, b, c]⟩) (g : Fin a) (r : Fin b) (n : Fin c) :
    shapeCast ⟨3, ![a, b, c]⟩ x h (ix3 g r n)
      = x (ix2 (⟨g.val * b + r.val, by
            have hg := g.isLt; have hr := r.isLt; rw [hm]
            calc g.val * b + r.val < g.val * b + b := by omega
              _ = (g.val + 1) * b := by rw [Nat.add_mul, Nat.one_mul]
              _ ≤ a * b := Nat.mul_le_mul_right b hg⟩ : Fin m) n) :=
  shapeCast_apply x h _ _ (by
    rw [Shape.rowMajor_val_three, Shape.rowMajor_val_two]
    rfl)

/-- [a, c] seen as [a, 1, c] keeps its entries. -/
theorem cast_ac_a1c {a c : ℕ} (x : (⟨2, ![a, c]⟩ : Shape).Idx → α)
    (h : (⟨2, ![a, c]⟩ : Shape).ShapeCasts ⟨3, ![a, 1, c]⟩) (g : Fin a) (u : Fin 1) (n : Fin c) :
    shapeCast ⟨3, ![a, 1, c]⟩ x h (ix3 g u n) = x (ix2 g n) :=
  shapeCast_apply x h _ _ (by
    have hu : u.val = 0 := by omega
    rw [Shape.rowMajor_val_three, Shape.rowMajor_val_two]
    show g.val * c + n.val = (g.val * 1 + u.val) * c + n.val
    rw [hu, Nat.mul_one, Nat.add_zero])

/-- [a, 1, c] spread to [a, b, c] repeats (g, 0, n) along the middle axis. -/
theorem bcast_a1c_abc {a b c : ℕ} (hc : c ≠ 1) (ha : a ≠ 1) (v : (⟨3, ![a, 1, c]⟩ : Shape).Idx → α)
    (h : (⟨3, ![a, 1, c]⟩ : Shape).Broadcasts ⟨3, ![a, b, c]⟩) (g : Fin a) (r : Fin b) (n : Fin c) :
    broadcastTo ⟨3, ![a, b, c]⟩ v h (ix3 g r n) = v (ix3 g (0 : Fin 1) n) := by
  refine broadcastTo_apply v h (ix3 g r n) (ix3 g (0 : Fin 1) n) fun ax => ?_
  match ax with
  | ⟨0, _⟩ =>
    show g.val = if a = 1 then 0 else g.val
    rw [if_neg ha]
  | ⟨1, _⟩ => rfl
  | ⟨2, _⟩ =>
    show n.val = if c = 1 then 0 else n.val
    rw [if_neg hc]

end Cert.LibCast3

end
-- ==== Proof.LibDot.lean ====
/-
  A plain matrix product read at an entry, at the ideal instance, over ANY dimension-number record whose fields are
  the plain ones ([1] x [0] contracted, [0] and [1] kept, no batch axes): the kernel's matmul into a zero accumulator and
  the host's dot_general are both the sum over k of a(r, k) * b(k, c), with k ranging over Fin K.

  eq_plain: a record with the plain fields IS DotDims.plain (the well-formedness proof is a proposition).
  plain_sum: the contraction sum of the plain record, re-indexed through its one coordinate.
  matmul_zero_at / dotGeneral_at: the two products at (r, c); kmatmul_at / hdot_at: the same over the printed spellings.
-/
import Idealize.ShloMosaic.Lib.ValueIdx
import Idealize.ShloMosaic.PureOps.Ideal.Laws

noncomputable section

open scoped BigOperators

namespace Cert.LibDot

open Idealize.ShloMosaic Idealize.ShloMosaic.ValueIdx

variable {M K N : Nat}

/-- A record whose six lists are the plain ones is the plain record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain M K N := by
  cases d
  simp only at h1 h2 h3 h4 h5 h6
  subst h1 h2 h3 h4 h5 h6
  rfl

theorem plain_rank : (DotDims.plain M K N).contr.rank = 1 := rfl

theorem plain_size : (DotDims.plain M K N).contr.size ⟨0, by rw [plain_rank]; exact Nat.one_pos⟩ = K := rfl

/-- The left operand's index at output (r, c) and contraction position k is (r, k). -/
theorem plain_lhsIdx (r : Fin M) (c : Fin N) (k : Fin K) :
    (DotDims.plain M K N).lhsIdx (ix2 r c) ((contrEquiv1 (DotDims.plain M K N) K plain_rank plain_size).symm k) = ix2 r k := by
  funext ax
  apply Fin.ext
  match ax with
  | ⟨0, _⟩ => rfl
  | ⟨1, _⟩ =>
    exact ((DotDims.plain M K N).lhsIdx_val_of_single (cl := 1) rfl _ _).trans
      (contrEquiv1_symm_val (DotDims.plain M K N) K plain_rank plain_size k)

/-- The right operand's index at output (r, c) and contraction position k is (k, c). -/
theorem plain_rhsIdx (r : Fin M) (c : Fin N) (k : Fin K) :
    (DotDims.plain M K N).rhsIdx (ix2 r c) ((contrEquiv1 (DotDims.plain M K N) K plain_rank plain_size).symm k) = ix2 k c := by
  funext ax
  apply Fin.ext
  match ax with
  | ⟨0, _⟩ =>
    exact ((DotDims.plain M K N).rhsIdx_val_of_single (cr := 0) rfl _ _).trans
      (contrEquiv1_symm_val (DotDims.plain M K N) K plain_rank plain_size k)
  | ⟨1, _⟩ => rfl

/-- The plain record's contraction sum at (r, c) is the sum over k : Fin K of a(r, k) * b(k, c). -/
theorem plain_sum {φ₁ φ₂ : FTy} (a : FVec Ideal ⟨2, ![M, K]⟩ φ₁) (b : FVec Ideal ⟨2, ![K, N]⟩ φ₂) (r : Fin M) (c : Fin N) :
    (∑ k : (DotDims.plain M K N).contr.Idx,
        a ((DotDims.plain M K N).lhsIdx (ix2 r c) k) * b ((DotDims.plain M K N).rhsIdx (ix2 r c) k) : EReal)
      = ∑ k : Fin K, a (ix2 r k) * b (ix2 k c) := by
  rw [← Equiv.sum_comp (contrEquiv1 (DotDims.plain M K N) K plain_rank plain_size).symm]
  refine Finset.sum_congr rfl fun k _ => ?_
  rw [plain_lhsIdx, plain_rhsIdx]

/-- The kernel's matrix product into a zero accumulator, at (r, c). -/
theorem matmul_zero_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    FloatOps.matmul d prec a b (constant ⟨2, ![M, N]⟩ .f32 0x00000000#32) (ix2 r c) = ∑ k : Fin K, a (ix2 r k) * b (ix2 k c) := by
  subst hd
  rw [Ideal.matmul_constant_zero_apply]
  exact plain_sum a b r c

/-- The host's dot_general, at (r, c). -/
theorem dotGeneral_at {φ₁ φ₂ : FTy} (d : DotDims ⟨2, ![M, K]⟩ ⟨2, ![K, N]⟩ ⟨2, ![M, N]⟩) (hd : d = DotDims.plain M K N)
    (prec : Option ContractPrecision) (sched : HostSchedule) (a : FVec Ideal ⟨2, ![M, K]⟩ φ₁) (b : FVec Ideal ⟨2, ![K, N]⟩ φ₂)
    (r : Fin M) (c : Fin N) :
    FloatOps.dotGeneral d prec sched a b (ix2 r c) = ∑ k : Fin K, a (ix2 r k) * b (ix2 k c) := by
  subst hd
  rw [Ideal.dotGeneral_apply]
  exact plain_sum a b r c

/-- The same, spelt with the kernel's vector operation. -/
theorem kmatmul_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    matmul d prec a b (constant ⟨2, ![M, N]⟩ .f32 0x00000000#32) (ix2 r c) = ∑ k : Fin K, a (ix2 r k) * b (ix2 k c) :=
  matmul_zero_at d hd prec a b r c

/-- The same, spelt with the host's operation. -/
theorem hdot_at {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (b : FVec Ideal ⟨2, ![K, N]⟩ φ₂) (r : Fin M) (c : Fin N) :
    Host.dotGeneral d prec a b (ix2 r c) = ∑ k : Fin K, a (ix2 r k) * b (ix2 k c) :=
  dotGeneral_at d hd prec _ a b r c

end Cert.LibDot

end
-- ==== Proof.KernelValue.lean ====
/-
  What one grid step of the kernel leaves in its output block, entry by entry.

  A step holds four rows b of the batch. It projects every subword of the block with the head's weight (one matrix
  product over the 4 * 512 subwords laid end to end, regrouped by row), builds the 0/1 table that says whether subword s
  belongs to word g (the position g compared with the subword's id), counts each word's subwords by summing the table
  over s, contracts the projections with the table over s (one product per row), divides by max(count, 1) and adds
  the bias: entry (q, o, g) of the block is the pooled value of Spec.lean at the block's row q, output o and word g.
-/
import proofs.«423513_j59270548685358_3_alg».proof.Proof.Spec
import proofs.«423513_j59270548685358_3_alg».proof.Proof.LibCast3
import proofs.«423513_j59270548685358_3_alg».proof.Proof.LibDot
import proofs.«423513_j59270548685358_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SegPool.Kern

open Idealize.ShloMosaic Idealize.ShloMosaic.ValueIdx Cert.KernelIdeal Cert.KernelIdeal.Gen

/-- 1 when the id word w names word g, else 0. -/
def hitW (w : BitVec 32) (g : Fin 512) : EReal := if w.toNat = g.val then 1 else 0

/-- Comparing position g, as a 32-bit word, with an id word, widening the bit and reading it as a float gives hitW. -/
theorem hitW_eq (w : BitVec 32) (g : Fin 512) :
    (FloatOps.sitofp (F := Ideal) .f32 ((IntOp.cmpi .eq (BitVec.ofNat 32 g.val) w).setWidth 32) : EReal) = hitW w g := by
  have hg := g.isLt
  unfold hitW
  show (((((IntOp.cmpi .eq (BitVec.ofNat 32 g.val) w).setWidth 32).toInt : ℝ)) : EReal) = _
  by_cases h : w.toNat = g.val
  · have e : BitVec.ofNat 32 g.val = w := BitVec.eq_of_toNat_eq (by rw [BitVec.toNat_ofNat, h]; omega)
    rw [if_pos h, e]
    have : ((IntOp.cmpi .eq w w).setWidth 32).toInt = 1 := by
      unfold IntOp.cmpi
      simp
    rw [this]
    norm_num
  · have e : BitVec.ofNat 32 g.val ≠ w := by
      intro e
      apply h
      rw [← e, BitVec.toNat_ofNat]
      omega
    rw [if_neg h]
    have hb : (BitVec.ofNat 32 g.val == w) = false := beq_eq_false_iff_ne.mpr e
    have : ((IntOp.cmpi .eq (BitVec.ofNat 32 g.val) w).setWidth 32).toInt = 0 := by
      unfold IntOp.cmpi
      simp [hb]
    rw [this]
    norm_num

/-- The 0/1 table of a block at (q, g, s): position g against the id of subword s of the block's row q. -/
theorem oneHot_at (sg : IVec S4x1x512 32) (q : Fin 4) (g s : Fin 512) :
    (sitofp .f32 (extui 32 (cmpi .eq (broadcastTo S4x512x512 (iota .tc S1x512x1 32 [1] iota_S1x512x1_d1_w32) broadcasts_S1x512x1_S4x512x512)
      (broadcastTo S4x512x512 (shapeCast S4x1x512 sg shapeCasts_S4x1x512_S4x1x512) broadcasts_S4x1x512_S4x512x512)) natLt_1_32)
        : FVec Ideal S4x512x512 .f32) (ix3 q g s) = hitW (sg (ix3 q (0 : Fin 1) s)) g := by
  rw [sitofp_apply, extui_apply]
  show FloatOps.sitofp (F := Ideal) .f32 ((IntOp.cmpi .eq
      (broadcastTo S4x512x512 (iota .tc S1x512x1 32 [1] iota_S1x512x1_d1_w32) broadcasts_S1x512x1_S4x512x512 (ix3 q g s))
      (broadcastTo S4x512x512 (shapeCast S4x1x512 sg shapeCasts_S4x1x512_S4x1x512) broadcasts_S4x1x512_S4x512x512 (ix3 q g s))).setWidth 32) = _
  have e1 : broadcastTo S4x512x512 (iota .tc S1x512x1 32 [1] iota_S1x512x1_d1_w32) broadcasts_S1x512x1_S4x512x512 (ix3 q g s)
      = BitVec.ofNat 32 g.val := by
    refine (broadcastTo_apply _ broadcasts_S1x512x1_S4x512x512 (ix3 q g s) (ix3 (0 : Fin 1) g (0 : Fin 1)) fun ax => ?_).trans ?_
    · match ax with
      | ⟨0, _⟩ => rfl
      | ⟨1, _⟩ => rfl
      | ⟨2, _⟩ => rfl
    · exact iota_single_apply .tc S1x512x1 32 1 iota_S1x512x1_d1_w32 _
  have e2 : broadcastTo S4x512x512 (shapeCast S4x1x512 sg shapeCasts_S4x1x512_S4x1x512) broadcasts_S4x1x512_S4x512x512 (ix3 q g s)
      = sg (ix3 q (0 : Fin 1) s) := by
    rw [shapeCast_self]
    exact LibCast3.bcast_a1c_abc (by decide) (by decide) sg broadcasts_S4x1x512_S4x512x512 q g s
  rw [e1, e2]
  exact hitW_eq _ g

/-- The count of word g in row q of a block: the table summed over the subwords. -/
theorem count_at (oh : FVec Ideal S4x512x512 .f32) (hφ : FKind.Formats .f32)
    (hacc : (0x00000000#32 : BitVec 32) = FKind.add.neutral .f32 hφ) (q : Fin 4) (g : Fin 512) :
    multiReduction .add [2] S4x512 oh 0x00000000#32 reduces_S4x512x512_S4x512 hφ hacc (ix2 q g)
      = ∑ s : Fin 512, oh (ix3 q g s) := by
  refine (Ideal.multiReduction_add_single oh 0x00000000#32 reduces_S4x512x512_S4x512 hφ hacc (ix2 q g)).trans ?_
  refine Finset.sum_congr rfl fun s _ => congrArg oh (funext fun ax => Fin.ext ?_)
  match ax with
  | ⟨0, _⟩ => rfl
  | ⟨1, _⟩ => rfl
  | ⟨2, _⟩ => rfl

/-- The head applied to subword s of row q of a block, output o: the block laid as 4 * 512 rows, one matrix product
    with the weight (features by outputs), regrouped by row. -/
theorem head_at (x : FVec Ideal S4x512x768 .f32) (wt : FVec Ideal S768x128 .bf16) (q : Fin 4) (s : Fin 512) (o : Fin 128) :
    (truncf .bf16 (shapeCast S4x512x128 (matmul dot_S2048x768_S768x128_S2048x128_1_0_0_1_n_n none
        (shapeCast S2048x768 (truncf .bf16 x bitsLt_bf16_f32) shapeCasts_S4x512x768_S2048x768)
        (shapeCast S768x128 wt shapeCasts_S768x128_S768x128) (constant S2048x128 .f32 0x00000000#32))
      shapeCasts_S2048x128_S4x512x128) bitsLt_bf16_f32 : FVec Ideal S4x512x128 .bf16) (ix3 q s o)
      = ∑ h : Fin 768, x (ix3 q s h) * wt (ix2 h o) := by
  have hq := q.isLt
  have hs := s.isLt
  rw [truncf_apply, LibCast3.cast_mc_abc (by norm_num : 2048 = 4 * 512),
    LibDot.kmatmul_at _ (LibDot.eq_plain _ rfl rfl rfl rfl rfl rfl), shapeCast_self]
  refine Finset.sum_congr rfl fun h _ => ?_
  rw [LibCast3.cast_abc_mc (by norm_num : 2048 = 4 * 512) (by norm_num), truncf_apply]
  congr 2
  funext ax
  apply Fin.ext
  match ax with
  | ⟨0, _⟩ => show (q.val * 512 + s.val) / 512 = q.val; omega
  | ⟨1, _⟩ => show (q.val * 512 + s.val) % 512 = s.val; omega
  | ⟨2, _⟩ => rfl

/-! The second product contracts, row by row, the projections [row, subword, output] with the table [row, word,
    subword] over the subword axis: the row is a batch axis of both operands. -/

theorem lhs_pool_0 (i : S4x128x512.Idx) (k : dot_S4x512x128_S4x512x512_S4x128x512_1_2_2_1_0_0.contr.Idx) :
    (dot_S4x512x128_S4x512x512_S4x128x512_1_2_2_1_0_0.lhsIdx i k 0).val = (i 0).val := by
  unfold DotDims.lhsIdx
  rw [dif_pos (show (0 : Fin S4x512x128.rank) ∈ dot_S4x512x128_S4x512x512_S4x128x512_1_2_2_1_0_0.lhsBatch by decide)]
  rfl
theorem lhs_pool_1 (i : S4x128x512.Idx) (k : dot_S4x512x128_S4x512x512_S4x128x512_1_2_2_1_0_0.contr.Idx) :
    (dot_S4x512x128_S4x512x512_S4x128x512_1_2_2_1_0_0.lhsIdx i k 1).val = (k ⟨0, by decide⟩).val :=
  dot_S4x512x128_S4x512x512_S4x128x512_1_2_2_1_0_0.lhsIdx_val_of_single rfl i k
theorem lhs_pool_2 (i : S4x128x512.Idx) (k : dot_S4x512x128_S4x512x512_S4x128x512_1_2_2_1_0_0.contr.Idx) :
    (dot_S4x512x128_S4x512x512_S4x128x512_1_2_2_1_0_0.lhsIdx i k 2).val = (i 1).val := by
  unfold DotDims.lhsIdx
  rw [dif_neg (show ¬(2 : Fin S4x512x128.rank) ∈ dot_S4x512x128_S4x512x512_S4x128x512_1_2_2_1_0_0.lhsBatch by decide),
    dif_pos (show (2 : Fin S4x512x128.rank) ∈ dot_S4x512x128_S4x512x512_S4x128x512_1_2_2_1_0_0.lhsNonContracting by decide)]
  rfl
theorem rhs_pool_0 (i : S4x128x512.Idx) (k : dot_S4x512x128_S4x512x512_S4x128x512_1_2_2_1_0_0.contr.Idx) :
    (dot_S4x512x128_S4x512x512_S4x128x512_1_2_2_1_0_0.rhsIdx i k 0).val = (i 0).val := by
  unfold DotDims.rhsIdx
  rw [dif_pos (show (0 : Fin S4x512x512.rank) ∈ dot_S4x512x128_S4x512x512_S4x128x512_1_2_2_1_0_0.rhsBatch by decide)]
  rfl
theorem rhs_pool_1 (i : S4x128x512.Idx) (k : dot_S4x512x128_S4x512x512_S4x128x512_1_2_2_1_0_0.contr.Idx) :
    (dot_S4x512x128_S4x512x512_S4x128x512_1_2_2_1_0_0.rhsIdx i k 1).val = (i 2).val := by
  unfold DotDims.rhsIdx
  rw [dif_neg (show ¬(1 : Fin S4x512x512.rank) ∈ dot_S4x512x128_S4x512x512_S4x128x512_1_2_2_1_0_0.rhsBatch by decide),
    dif_pos (show (1 : Fin S4x512x512.rank) ∈ dot_S4x512x128_S4x512x512_S4x128x512_1_2_2_1_0_0.rhsNonContracting by decide)]
  rfl
theorem rhs_pool_2 (i : S4x128x512.Idx) (k : dot_S4x512x128_S4x512x512_S4x128x512_1_2_2_1_0_0.contr.Idx) :
    (dot_S4x512x128_S4x512x512_S4x128x512_1_2_2_1_0_0.rhsIdx i k 2).val = (k ⟨0, by decide⟩).val :=
  dot_S4x512x128_S4x512x512_S4x128x512_1_2_2_1_0_0.rhsIdx_val_of_single rfl i k

/-- The per-row product into a zero accumulator at (q, o, g): the sum over the subwords s of the left operand at
    (q, s, o) times the right at (q, g, s). -/
theorem pool_at (a : FVec Ideal S4x512x128 .bf16) (t : FVec Ideal S4x512x512 .bf16) (q : Fin 4) (o : Fin 128) (g : Fin 512) :
    matmul dot_S4x512x128_S4x512x512_S4x128x512_1_2_2_1_0_0 none a t (constant S4x128x512 .f32 0x00000000#32) (ix3 q o g)
      = ∑ s : Fin 512, a (ix3 q s o) * t (ix3 q g s) := by
  refine (Ideal.matmul_constant_zero_apply dot_S4x512x128_S4x512x512_S4x128x512_1_2_2_1_0_0 none a t (ix3 q o g)).trans ?_
  rw [← Equiv.sum_comp (contrEquiv1 dot_S4x512x128_S4x512x512_S4x128x512_1_2_2_1_0_0 512 rfl rfl).symm]
  refine Finset.sum_congr rfl fun s _ => ?_
  have hk := contrEquiv1_symm_val dot_S4x512x128_S4x512x512_S4x128x512_1_2_2_1_0_0 512 rfl rfl s
  have el : dot_S4x512x128_S4x512x512_S4x128x512_1_2_2_1_0_0.lhsIdx (ix3 q o g)
      ((contrEquiv1 dot_S4x512x128_S4x512x512_S4x128x512_1_2_2_1_0_0 512 rfl rfl).symm s) = ix3 q s o :=
    funext fun ax => Fin.ext (by
      match ax with
      | ⟨0, _⟩ => exact lhs_pool_0 _ _
      | ⟨1, _⟩ => exact (lhs_pool_1 _ _).trans hk
      | ⟨2, _⟩ => exact lhs_pool_2 _ _)
  have er : dot_S4x512x128_S4x512x512_S4x128x512_1_2_2_1_0_0.rhsIdx (ix3 q o g)
      ((contrEquiv1 dot_S4x512x128_S4x512x512_S4x128x512_1_2_2_1_0_0 512 rfl rfl).symm s) = ix3 q g s :=
    funext fun ax => Fin.ext (by
      match ax with
      | ⟨0, _⟩ => exact rhs_pool_0 _ _
      | ⟨1, _⟩ => exact rhs_pool_1 _ _
      | ⟨2, _⟩ => exact (rhs_pool_2 _ _).trans hk)
  rw [el, er]

/-- The word 0x3F800000 is the number one. -/
theorem one_word : Scalar.ofBits (F := Ideal) .f32 0x3F800000#32 = 1 := by
  show Ideal.ofBits .f32 0x3F800000#32 = 1
  simp [Ideal.ofBits, Ideal.ieee, -EReal.coe_mul]; norm_num

/-- THE BLOCK'S ENTRY: what a step stores at (q, o, g), from the step's four input blocks. -/
theorem pay_at (x : FVec Ideal S4x512x768 .f32) (wt : FVec Ideal S768x128 .bf16) (bias : FVec Ideal S128 .f32)
    (sg : IVec S4x1x512 32) (q : Fin 4) (o : Fin 128) (g : Fin 512) :
    k0_pay1 (F := Ideal) x wt bias sg (ix3 q o g)
      = Ideal.div (∑ s : Fin 512, (∑ h : Fin 768, x (ix3 q s h) * wt (ix2 h o)) * hitW (sg (ix3 q (0 : Fin 1) s)) g)
          (max (∑ s : Fin 512, hitW (sg (ix3 q (0 : Fin 1) s)) g) 1) + bias (ix1 o) := by
  unfold k0_pay1
  refine (addf_apply _ _ _).trans ?_
  congr 1
  · refine (divf_apply _ _ _).trans ?_
    congr 1
    · refine (pool_at _ _ q o g).trans ?_
      refine Finset.sum_congr rfl fun s _ => ?_
      congr 1
      · exact head_at x wt q s o
      · exact (truncf_apply (ψ := .bf16) _ bitsLt_bf16_f32 _).trans (oneHot_at sg q g s)
    · refine (LibCast3.bcast_a1c_abc (by decide) (by decide) _ broadcasts_S4x1x512_S4x128x512 q o g).trans ?_
      refine (LibCast3.cast_ac_a1c _ shapeCasts_S4x512_S4x1x512 q (0 : Fin 1) g).trans ?_
      refine (maximumf_apply _ _ _).trans ?_
      congr 1
      · refine (count_at _ _ _ q g).trans ?_
        exact Finset.sum_congr rfl fun s _ => oneHot_at sg q g s
      · exact one_word
  · refine (broadcastTo_apply _ broadcasts_S1x128x1_S4x128x512 (ix3 q o g) (ix3 (0 : Fin 1) o (0 : Fin 1)) fun ax => ?_).trans ?_
    · match ax with
      | ⟨0, _⟩ => rfl
      | ⟨1, _⟩ => rfl
      | ⟨2, _⟩ => rfl
    · refine shapeCast_apply _ shapeCasts_S128_S1x128x1 _ (ix1 o) ?_
      rw [Shape.rowMajor_val_three, Shape.rowMajor_val_one]
      show o.val = (0 * 128 + o.val) * 1 + 0
      omega

end Cert.SegPool.Kern

end
-- ==== Proof.KernelBlocks.lean ====
/-
  The kernel's whole output array after the run is the pooled array over every word (full of Spec.lean).

  Step t handles rows 4 t .. 4 t + 3: its block of the subword states is those rows, its block of the ids likewise, and
  the weight and bias blocks are the whole arrays at every step. Before the region the host lays the weight as
  features by outputs (a transpose; the change of float format is the identity) and gives the ids a unit middle axis.
  So entry (q, o, g) of what step t writes back is pooled at row 4 t + q, and the 16 steps' blocks tile the output.
-/
import proofs.«423513_j59270548685358_3_alg».proof.Proof.KernelValue
import proofs.«423513_j59270548685358_3_alg».proof.Proof.Gen.KernelIdeal.Frame

set_option maxRecDepth 16384

noncomputable section

open scoped BigOperators

namespace Cert.SegPool.Kern

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The arrays the host prepares before the region -/

/-- The weight as the region finds it: entry (h, o) is W[o, h]. -/
theorem weight_at (c : Dev nD) (h : Fin 768) (o : Fin 128) :
    (V (F := Ideal) m c main_v1 : S768x128.Idx → EReal) (ix2 h o)
      = (m ((c : Thread nD τ).loc main_arg1) : S128x768.Idx → EReal) (ix2 o h) := by
  have e : (V (F := Ideal) m c main_v1 : S768x128.Idx → EReal)
      = (truncf .bf16 (transpose S768x128 [1, 0] (m ((c : Thread nD τ).loc main_arg1) : S128x768.Idx → EReal) transposes_S128x768_S768x128_1_0 : FVec Ideal S768x128 .f32) bitsLt_bf16_f32 : FVec Ideal S768x128 .bf16) := by
    show StableHlo.after (Val := Elt Ideal) hostOps0 (fun b => m (c, b)) (Proc.devRef .tc main_v1) = _
    after_results
  rw [e, truncf_apply]
  refine transpose_apply _ _ transposes_S128x768_S768x128_1_0 (ix2 h o) (ix2 o h) fun b => ?_
  match b with
  | ⟨0, _⟩ => rfl
  | ⟨1, _⟩ => rfl

/-- The ids as the region finds them: entry (b, 0, s) is seg[b, s]. -/
theorem ids_at (c : Dev nD) (b : Fin 64) (u : Fin 1) (s : Fin 512) :
    (V (F := Ideal) m c main_v2 : S64x1x512.Idx → BitVec 32) (ix3 b u s)
      = (m ((c : Thread nD τ).loc main_arg3) : S64x512.Idx → BitVec 32) (ix2 b s) := by
  have e : (V (F := Ideal) m c main_v2 : S64x1x512.Idx → BitVec 32)
      = shapeCast S64x1x512 (m ((c : Thread nD τ).loc main_arg3) : S64x512.Idx → BitVec 32) shapeCasts_S64x512_S64x1x512 := by
    show StableHlo.after (Val := Elt Ideal) hostOps0 (fun b => m (c, b)) (Proc.devRef .tc main_v2) = _
    after_results
    rfl
  rw [e]
  exact LibCast3.cast_ac_a1c _ shapeCasts_S64x512_S64x1x512 b u s

/-! ## Where each window's block sits at a grid step -/

/-- Step t: the states, the ids and the output are at block (t, 0, 0); the weight and the bias at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-! ## One step's block, entry by entry -/

/-- A step whose blocks hold row b of the states and of the ids at their row q, the weight laid features by outputs and
    the bias, leaves pooled at row b in entry (q, o, g) of its output block. -/
theorem block_entry (X : SX.Idx → EReal) (W : SW.Idx → EReal) (B : SB.Idx → EReal) (seg : SI.Idx → BitVec 32)
    (x : FVec Ideal S4x512x768 .f32) (wt : FVec Ideal S768x128 .bf16) (bias : FVec Ideal S128 .f32)
    (sg : IVec S4x1x512 32) (b : Fin 64) (q : Fin 4)
    (hx : ∀ s h, x (ix3 q s h) = X (ix3 b s h))
    (hwt : ∀ h o, wt (ix2 h o) = W (ix2 o h))
    (hbias : ∀ o, bias (ix1 o) = B (ix1 o))
    (hsg : ∀ s, sg (ix3 q (0 : Fin 1) s) = seg (ix2 b s))
    (o : Fin 128) (g : Fin 512) :
    k0_pay1 (F := Ideal) x wt bias sg (ix3 q o g) = pooled X W B seg b o g := by
  rw [pay_at]
  unfold pooled proj count hit hitW
  simp only [hx, hwt, hbias, hsg]

/-! ## What a step writes back -/

/-- Step t writes back block t of the pooled array over every word. -/
theorem flushed_eq (c : Dev nD) (t : Fin cfg0.N) :
    (dats (F := Ideal) m 0 c).flushed 4 t = ((cfg0.win 4).blk t).view.read (Elt Ideal)
      (Cert.SegPool.full (m ((c : Thread nD τ).loc main_arg0)) (m ((c : Thread nD τ).loc main_arg1))
        (m ((c : Thread nD τ).loc main_arg2)) (m ((c : Thread nD τ).loc main_arg3))) := by
  show (cfg0.win 4).cut (grid0.coords t) ((dats (F := Ideal) m 0 c).after 4 t) = _
  rw [after0_4]
  unfold out0_4
  rw [View.canon_unit_zero hz3]
  simp only [View.ld_unit_zero (S := S4x512x768) hz3, View.ld_unit_zero (S := S768x128) hz2,
    View.ld_unit_zero (S := S128) hz1, View.ld_unit_zero (S := S4x1x512) hz3]
  obtain ⟨e00, e01, e02, e10, e11, e12, e20, e21, e30, e40, e41, e42⟩ := idx_facts t
  have hN : t.val < 16 := t.isLt.trans_eq N_0
  funext j
  obtain ⟨q, o, g, rfl⟩ : ∃ (q : Fin 4) (o : Fin 128) (g : Fin 512), (j : S4x128x512.Idx) = ix3 q o g :=
    ⟨j 0, j 1, j 2, eq_ix3 j⟩
  have hq := q.isLt
  refine (block_entry (m ((c : Thread nD τ).loc main_arg0)) (m ((c : Thread nD τ).loc main_arg1))
    (m ((c : Thread nD τ).loc main_arg2)) (m ((c : Thread nD τ).loc main_arg3))
    (iblk m c 0 t) (iblk m c 2 t) (iblk m c 3 t) (iblk m c 1 t) (⟨4 * t.val + q.val, by omega⟩ : Fin 64) q ?_ ?_ ?_ ?_ o g).trans ?_
  · intro s h
    show V (F := Ideal) m c main_arg0 (((cfg0.win 0).blk t).view.emb (ix3 q s h)) = _
    rw [V_main_arg0]
    refine congrArg _ (funext fun a => Fin.ext ?_)
    match a with
    | ⟨0, _⟩ => show win0_0.index t (0 : Fin 3) * 4 + 1 * q.val = 4 * t.val + q.val; omega
    | ⟨1, _⟩ => show win0_0.index t (1 : Fin 3) * 512 + 1 * s.val = s.val; omega
    | ⟨2, _⟩ => show win0_0.index t (2 : Fin 3) * 768 + 1 * h.val = h.val; omega
  · intro h o
    refine Eq.trans ?_ (weight_at m c h o)
    show V (F := Ideal) m c main_v1 (((cfg0.win 2).blk t).view.emb (ix2 h o)) = V (F := Ideal) m c main_v1 (ix2 h o)
    refine congrArg _ (funext fun a => Fin.ext ?_)
    match a with
    | ⟨0, _⟩ => show win0_2.index t (0 : Fin 2) * 768 + 1 * h.val = h.val; omega
    | ⟨1, _⟩ => show win0_2.index t (1 : Fin 2) * 128 + 1 * o.val = o.val; omega
  · intro o
    show V (F := Ideal) m c main_arg2 (((cfg0.win 3).blk t).view.emb (ix1 o)) = _
    rw [V_main_arg2]
    refine congrArg _ (funext fun a => Fin.ext ?_)
    match a with
    | ⟨0, _⟩ => show win0_3.index t (0 : Fin 1) * 128 + 1 * o.val = o.val; omega
  · intro s
    refine Eq.trans ?_ (ids_at m c (⟨4 * t.val + q.val, by omega⟩ : Fin 64) (0 : Fin 1) s)
    show V (F := Ideal) m c main_v2 (((cfg0.win 1).blk t).view.emb (ix3 q (0 : Fin 1) s))
      = V (F := Ideal) m c main_v2 (ix3 (⟨4 * t.val + q.val, by omega⟩ : Fin 64) (0 : Fin 1) s)
    refine congrArg _ (funext fun a => Fin.ext ?_)
    match a with
    | ⟨0, _⟩ => show win0_1.index t (0 : Fin 3) * 4 + 1 * q.val = 4 * t.val + q.val; omega
    | ⟨1, _⟩ => show win0_1.index t (1 : Fin 3) * 1 + 1 * 0 = 0; omega
    | ⟨2, _⟩ => show win0_1.index t (2 : Fin 3) * 512 + 1 * s.val = s.val; omega
  · have hb : (((cfg0.win 4).blk t).view.emb (ix3 q o g) : S64x128x512.Idx)
        = ix3 (⟨4 * t.val + q.val, by omega⟩ : Fin 64) o g := by
      refine funext fun a => Fin.ext ?_
      match a with
      | ⟨0, _⟩ => show win0_4.index t (0 : Fin 3) * 4 + 1 * q.val = 4 * t.val + q.val; omega
      | ⟨1, _⟩ => show win0_4.index t (1 : Fin 3) * 128 + 1 * o.val = o.val; omega
      | ⟨2, _⟩ => show win0_4.index t (2 : Fin 3) * 512 + 1 * g.val = g.val; omega
    show _ = Cert.SegPool.full (m ((c : Thread nD τ).loc main_arg0)) (m ((c : Thread nD τ).loc main_arg1))
      (m ((c : Thread nD τ).loc main_arg2)) (m ((c : Thread nD τ).loc main_arg3)) (((cfg0.win 4).blk t).view.emb (ix3 q o g))
    rw [hb]
    rfl

/-! ## The steps' blocks tile the output -/

/-- An index of the output array is in step t's block iff each coordinate is in the block's range on its axis. -/
theorem mem_blk (t : Fin cfg0.N) (i : S64x128x512.Idx) :
    i ∈ ((cfg0.win 4).blk t).view.set ↔ ∀ a : Fin 3, win0_4.index t a * S4x128x512.size a ≤ (i a).val
      ∧ (i a).val < win0_4.index t a * S4x128x512.size a + S4x128x512.size a := by
  show i ∈ ((View.whole main_v3).slice (win0_4.rect t)).set ↔ _
  rw [View.set_slice_whole, Rect.mem_set_unit]
  exact Iff.rfl

/-- Row b of the output is written by step b / 4. -/
theorem cover (i : S64x128x512.Idx) :
    ∃ t : Fin cfg0.N, (cfg0.win 4).flush t = true ∧ i ∈ ((cfg0.win 4).blk t).view.set := by
  have h0 : (i 0).val < 64 := (i 0).isLt
  have h1 : (i 1).val < 128 := (i 1).isLt
  have h2 : (i 2).val < 512 := (i 2).isLt
  obtain ⟨t, ht⟩ : ∃ t : Fin cfg0.N, t.val = (i 0).val / 4 :=
    ⟨⟨(i 0).val / 4, by show (i 0).val / 4 < grid0.N; rw [N_0]; omega⟩, rfl⟩
  obtain ⟨-, -, -, -, -, -, -, -, -, e40, e41, e42⟩ := idx_facts t
  refine ⟨t, flush0_4 t, ?_⟩
  rw [mem_blk]
  intro a
  match a with
  | ⟨0, _⟩ =>
    show win0_4.index t (0 : Fin 3) * 4 ≤ (i 0).val ∧ (i 0).val < win0_4.index t (0 : Fin 3) * 4 + 4
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 512 ≤ (i 2).val ∧ (i 2).val < win0_4.index t (2 : Fin 3) * 512 + 512
    omega

/-- THE ARRAY after the run: the pooled array over every word, of the four arguments as launched. -/
theorem final (c : Dev nD) :
    (dats (F := Ideal) m 0 c).arrAt 4 cfg0.N = Cert.SegPool.full (m ((c : Thread nD τ).loc main_arg0)) (m ((c : Thread nD τ).loc main_arg1)) (m ((c : Thread nD τ).loc main_arg2)) (m ((c : Thread nD τ).loc main_arg3)) :=
  (dats (F := Ideal) m 0 c).arrAt_eq_of_cover 4 _ (fun t _ => flushed_eq m c t) cover

end Cert.SegPool.Kern

end
-- ==== Proof.KernelRun.lean ====
/-
  The kernel program's run, read: after the region the host drops word 0 of every row of the pooled array, so the
  result is G of Spec.lean of the four arguments, and the arguments end as launched.
-/
import proofs.«423513_j59270548685358_3_alg».proof.Proof.KernelBlocks

noncomputable section

namespace Cert.SegPool.Kern

open Idealize.ShloMosaic Idealize.ShloMosaic.ValueIdx Idealize.ShloMosaic.TcCoe Idealize.SL.Sem
open Cert.KernelIdeal Cert.KernelIdeal.Gen

/-- Dropping word 0 of every row of the pooled array over every word leaves G: entry (b, o, g') of the slice is entry
    (b, o, g' + 1) of the array. -/
theorem slice_full_eq_G (X : SX.Idx → EReal) (W : SW.Idx → EReal) (B : SB.Idx → EReal) (seg : SI.Idx → BitVec 32) :
    extractStridedSlice S64x128x511 ![0, 0, 1] (Cert.SegPool.full X W B seg) Facts₀.slices_S64x128x512_S64x128x511_0_0_1
      = Cert.SegPool.G X W B seg := by
  funext i
  obtain ⟨b, o, g', rfl⟩ : ∃ (b : Fin 64) (o : Fin 128) (g' : Fin 511), i = ix3 b o g' := ⟨i 0, i 1, i 2, eq_ix3 i⟩
  refine (extractStridedSlice_apply _ _ _ _ (ix3 b o (wordOf g')) (fun a => ?_)).trans ?_
  · match a with
    | ⟨0, _⟩ => show b.val = 0 + b.val; omega
    | ⟨1, _⟩ => show o.val = 0 + o.val; omega
    | ⟨2, _⟩ => show g'.val + 1 = 1 + g'.val; omega
  · rfl

variable (m : (ℓ : Loc nD τ sig) → Buf (Elt Ideal) ℓ) (ρ : Dev nD → PrngReg)

/-- Every weakly fair execution of the kernel program terminates with its result at G of the arguments and the
    arguments unchanged. -/
theorem kernel_run :
    θ_run (defs (F := Ideal)) (onTc (τ := τ) (main (F := Ideal))) ⟨m, fun _ => 0, ρ⟩ (fun r => ∀ c : Dev nD,
      r.2.mem ((c : Thread nD τ).loc main_v4) = Cert.SegPool.G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  -- the frame run's post gives every array of the region and every other buffer; read it buffer by buffer
  refine (θ_run (defs (F := Ideal)) _ _).mono (fun r h c => ⟨?_,
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 3).trans (((dats m 0 c).arrAt_in 3 rfl _).trans ((A_eq m c 3).trans (V_main_arg2 m c))),
    ((h c).2 main_arg3 (Pipeline.mem_restRefs_of main_arg3 (by decide) (by decide))).trans (W_main_arg3 m (dats m) c)⟩) (run_main m ρ)
  -- the result buffer holds the one host operation after the region, the slice, applied to the region's output array
  refine ((h c).2 main_v4 (Pipeline.mem_restRefs_of main_v4 (by decide) (by decide))).trans ?_
  unfold Pipeline.afterTail₀
  show StableHlo.after hostOps1 _ (Proc.devRef .tc main_v4) = _
  after_results
  have eA : Pipeline.withArrays (cfgs 0).spec c (V0 m c) (fun w => (dats m 0 c).arrAt w (cfgs 0).N) (Proc.devRef .tc main_v3)
      = (dats (F := Ideal) m 0 c).arrAt 4 cfg0.N :=
    Pipeline.withArrays_arr spec0 launch0.win.arr_inj c (V0 m c) (fun w => (dats m 0 c).arrAt w (cfgs 0).N) 4
  rw [eA, final m c]
  exact slice_full_eq_G (m ((c : Thread nD τ).loc main_arg0)) (m ((c : Thread nD τ).loc main_arg1))
    (m ((c : Thread nD τ).loc main_arg2)) (m ((c : Thread nD τ).loc main_arg3))

end Cert.SegPool.Kern

end
-- ==== Proof.lean ====
/-
  The kernel pools a linear head's outputs over words; the reference pools the features over words and then applies
  the head. Both results are arrays [64 rows, 128 outputs, 511 words] (word 0 of each row dropped).

  Kernel: out[b, o, g] = (sum over subwords s of (sum over h of X[b,s,h] W[o,h]) * [seg[b,s] = g]) / max(n[b,g], 1) + B[o],
  with n[b, g] the number of subwords of row b whose id is g. Reference: the subwords of all rows are laid end to end,
  subword (b', s') given the flat id seg[b', s'] + 512 b'; features and ones are summed per flat id, the feature sums
  divided by max(count, 1), and out[b, o, g] = sum over h of W[o,h] * mean[512 b + g, h] + B[o].

  The two agree when the float inputs are real numbers and every id lies in [0, 512): then no flat id leaves its own
  row's range, so the subwords landing on flat id 512 b + g are exactly the subwords of row b with id g, and over the
  reals a division by a nonzero constant commutes with the finite sums and the head is linear (Algebra.lean). The
  precondition states both facts (PreDecode.lean). Outside that range the claim fails (an id of 513 in row 0 is
  counted in row 1 by the reference and in no row by the kernel), which is why the range is part of the precondition.

  The kernel's array after its run is read off its frame run block by block (KernelValue.lean, KernelBlocks.lean,
  KernelRun.lean); the reference's result off its run, one operation at a time (RefRead.lean). Nothing is idealized
  beyond reading floats as extended reals, so the idealization conjunct is trivial.
-/
import proofs.«423513_j59270548685358_3_alg».proof.Defs
import proofs.«423513_j59270548685358_3_alg».proof.Proof.Gen.Kernel
import proofs.«423513_j59270548685358_3_alg».proof.Proof.Gen.Kernel.Skeleton
import proofs.«423513_j59270548685358_3_alg».proof.Proof.Gen.Kernel.Launch
import proofs.«423513_j59270548685358_3_alg».proof.Proof.Gen.Kernel.Points
import proofs.«423513_j59270548685358_3_alg».proof.Proof.Gen.Kernel.Frame
import proofs.«423513_j59270548685358_3_alg».proof.Proof.Gen.KernelIdeal
import proofs.«423513_j59270548685358_3_alg».proof.Proof.Gen.KernelIdeal.Skeleton
import proofs.«423513_j59270548685358_3_alg».proof.Proof.Gen.KernelIdeal.Launch
import proofs.«423513_j59270548685358_3_alg».proof.Proof.Gen.KernelIdeal.Points
import proofs.«423513_j59270548685358_3_alg».proof.Proof.Gen.KernelIdeal.Frame
import proofs.«423513_j59270548685358_3_alg».proof.Proof.Gen.ReferenceIdeal
import proofs.«423513_j59270548685358_3_alg».proof.Proof.Gen.ReferenceIdeal.Run
import proofs.«423513_j59270548685358_3_alg».proof.Proof.Gen.ReferenceIdeal.Read
import proofs.«423513_j59270548685358_3_alg».proof.Proof.Gen.Pre_finite_inputs
import proofs.«423513_j59270548685358_3_alg».proof.Proof.PreDecode
import proofs.«423513_j59270548685358_3_alg».proof.Proof.Algebra
import proofs.«423513_j59270548685358_3_alg».proof.Proof.RefRead
import proofs.«423513_j59270548685358_3_alg».proof.Proof.KernelRun
import Idealize.ShloMosaic.Adequacy
import Idealize.ShloMosaic.Init

noncomputable section

namespace Cert.Proof

open Idealize.ShloMosaic Idealize.SL.Sem Cert.Kernel

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end at the pooled array G of the arguments: the kernel by its run read back, the reference because
    its own arithmetic R is G on real inputs with ids below 512, which the precondition gives. -/
theorem algebraic : Cert.algebraic_KernelIdeal_ReferenceIdeal := by
  intro m ρ m' ρ' hpre hagree
  refine ⟨_, Cert.SegPool.Kern.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hB, hS⟩ := Cert.SegPool.of_pre _ _ _ _ (hpre c)
  rw [(hagree c).1, (hagree c).2.1, (hagree c).2.2.1, (hagree c).2.2.2]
  exact ((Cert.ReferenceIdeal.Read.val_main_v25_eq _ _ _ _).trans (Cert.SegPool.ref_eq_R _ _ _ _)).trans
    (Cert.SegPool.R_eq_G _ _ _ _ hX hW hB hS)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
